-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x14x512x512 : Shape := ⟨4, ![4, 14, 512, 512]⟩
abbrev S4x1x512x512 : Shape := ⟨4, ![4, 1, 512, 512]⟩
abbrev S_ : Shape := ⟨0, ![]⟩

class Facts : Prop where
  bcast_S_S4x14x512x512 : S_.BroadcastsInDim S4x14x512x512 (![] : Fin 0 → Fin S4x14x512x512.rank)
  reducesTo_S4x14x512x512_S_d0_1_2_3 : S4x14x512x512.ReducesTo [0, 1, 2, 3] S_
  h_S_ : 0 < S_.numel

variable [Facts]

def fn {F : FTy → Type} [FloatOps F] (main_arg0 : FVec F S4x14x512x512 .f32) (main_arg1 : FVec F S4x14x512x512 .f32) (main_arg2 : IVec S4x1x512x512 32) : IVec S_ 1 :=
  let main_v0 : FVec F S4x14x512x512 .f32 := Host.absf main_arg0
  let main_cst : FVec F S_ .f32 := constant S_ .f32 0x7F800000#32
  let main_v1 : FVec F S4x14x512x512 .f32 := broadcastInDim S4x14x512x512 ![] bcast_S_S4x14x512x512 main_cst
  let main_v2 : IVec S4x14x512x512 1 := cmpf .olt main_v0 main_v1
  let main_c : IVec S_ 1 := constantI S_ 1 1#1
  let main_v3 : IVec S_ 1 := (fun x v => Host.reduce IntOp.andi x v reducesTo_S4x14x512x512_S_d0_1_2_3 h_S_) main_v2 main_c
  let main_v4 : FVec F S4x14x512x512 .f32 := Host.absf main_arg1
  let main_cst_0 : FVec F S_ .f32 := constant S_ .f32 0x7F800000#32
  let main_v5 : FVec F S4x14x512x512 .f32 := broadcastInDim S4x14x512x512 ![] bcast_S_S4x14x512x512 main_cst_0
  let main_v6 : IVec S4x14x512x512 1 := cmpf .olt main_v4 main_v5
  let main_c_1 : IVec S_ 1 := constantI S_ 1 1#1
  let main_v7 : IVec S_ 1 := (fun x v => Host.reduce IntOp.andi x v reducesTo_S4x14x512x512_S_d0_1_2_3 h_S_) main_v6 main_c_1
  let main_v8 : IVec S_ 1 := andi main_v3 main_v7
  main_v8
-- ==== Kernel.lean ====
abbrev S4x14x512x512 : Shape := ⟨4, ![4, 14, 512, 512]⟩
abbrev S4x1x512x512 : Shape := ⟨4, ![4, 1, 512, 512]⟩
abbrev S4x8x128 : Shape := ⟨3, ![4, 8, 128]⟩
abbrev S1x1x512x512 : Shape := ⟨4, ![1, 1, 512, 512]⟩
abbrev S1x8x128 : Shape := ⟨3, ![1, 8, 128]⟩
abbrev S4x512x512 : Shape := ⟨3, ![4, 512, 512]⟩
abbrev S512x512 : Shape := ⟨2, ![512, 512]⟩
abbrev S1x512 : Shape := ⟨2, ![1, 512]⟩
abbrev S511x512 : Shape := ⟨2, ![511, 512]⟩
abbrev S1x512x512 : Shape := ⟨3, ![1, 512, 512]⟩
abbrev S512x1 : Shape := ⟨2, ![512, 1]⟩
abbrev S512x511 : Shape := ⟨2, ![512, 511]⟩
abbrev S8x128 : Shape := ⟨2, ![8, 128]⟩
abbrev S512 : Shape := ⟨1, ![512]⟩
abbrev S1 : Shape := ⟨1, ![1]⟩
abbrev S1x1 : Shape := ⟨2, ![1, 1]⟩
abbrev S4x1x1 : Shape := ⟨3, ![4, 1, 1]⟩
abbrev S4 : Shape := ⟨1, ![4]⟩
abbrev S_ : Shape := ⟨0, ![]⟩

abbrev nBuf : Space → Nat
  | .hbm => 21
  | .vmem => 11
  | .smem => 0
  | _ => 0

abbrev bufTy : (tb : Table) → Fin (tcTables nBuf tb) → BufTy
  | .hbm, ⟨0, _⟩ => ⟨S4x14x512x512, .f32⟩
  | .hbm, ⟨1, _⟩ => ⟨S4x14x512x512, .f32⟩
  | .hbm, ⟨2, _⟩ => ⟨S4x1x512x512, .i32⟩
  | .hbm, ⟨3, _⟩ => ⟨S4x8x128, .f32⟩
  | .hbm, ⟨4, _⟩ => ⟨S4x8x128, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S4x1x1, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1x512x512, .i32⟩
  | .local _ .vmem, ⟨1, _⟩ => ⟨S1x1x512x512, .i32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S4x512x512, .i32⟩
  | _, _ => ⟨S4x14x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 13], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  slices_S512x512_o0_0_S511x512 : S512x512.Slices ![0, 0] S511x512
  concatenates_S1x512_S511x512_S512x512_d0 : Shape.Concatenates [S1x512, S511x512] S512x512 0
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  shapeCasts_S512x512_S1x512x512 : S512x512.ShapeCasts S1x512x512
  slices_S512x512_o1_0_S511x512 : S512x512.Slices ![1, 0] S511x512
  concatenates_S511x512_S1x512_S512x512_d0 : Shape.Concatenates [S511x512, S1x512] S512x512 0
  inb_S4x512x512_S1x512x512_1_0_0 : ∀ a, (![1, 0, 0] : Fin 3 → Nat) a + S1x512x512.size a ≤ S4x512x512.size a
  slices_S512x512_o0_0_S512x511 : S512x512.Slices ![0, 0] S512x511
  concatenates_S512x1_S512x511_S512x512_d1 : Shape.Concatenates [S512x1, S512x511] S512x512 1
  inb_S4x512x512_S1x512x512_2_0_0 : ∀ a, (![2, 0, 0] : Fin 3 → Nat) a + S1x512x512.size a ≤ S4x512x512.size a
  slices_S512x512_o0_1_S512x511 : S512x512.Slices ![0, 1] S512x511
  concatenates_S512x511_S512x1_S512x512_d1 : Shape.Concatenates [S512x511, S512x1] S512x512 1
  inb_S4x512x512_S1x512x512_3_0_0 : ∀ a, (![3, 0, 0] : Fin 3 → Nat) a + S1x512x512.size a ≤ S4x512x512.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  broadcasts_S1x1_S8x128 : S1x1.Broadcasts S8x128
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S4x1x512x512.size a
  hwx0_0 : ∀ i : grid0.Coords, EltTy.bits .i32 = 32 ∨ (Rect.block (s := S4x1x512x512) S1x1x512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S4x14x512x512.size a
  hwx0_1 : ∀ i : grid0.Coords, EltTy.bits .f32 = 32 ∨ (Rect.block (s := S4x14x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S4x14x512x512.size a
  hwx0_2 : ∀ i : grid0.Coords, EltTy.bits .f32 = 32 ∨ (Rect.block (s := S4x14x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S4x8x128.size a
  hwx0_4 : ∀ i : grid0.Coords, EltTy.bits .f32 = 32 ∨ (Rect.block (s := S4x8x128) S1x8x128.size (cc0_transform_4 i) (hinb0_4 i)).WholeWords (EltTy.packing .f32)

variable [Facts₀]

abbrev win0_0 : Pipeline.Window sig grid0 :=
  Pipeline.Window.ofSpec (Memref.whole main_arg2) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x14x512x512 : Shape := ⟨4, ![4, 14, 512, 512]⟩
abbrev S4x1x512x512 : Shape := ⟨4, ![4, 1, 512, 512]⟩
abbrev S14 : Shape := ⟨1, ![14]⟩
abbrev S1x14x1x1 : Shape := ⟨4, ![1, 14, 1, 1]⟩
abbrev S_ : Shape := ⟨0, ![]⟩
abbrev S1 : Shape := ⟨1, ![1]⟩
abbrev S4x512x512 : Shape := ⟨3, ![4, 512, 512]⟩
abbrev S4x14x514x514 : Shape := ⟨4, ![4, 14, 514, 514]⟩
abbrev S4x14x262144 : Shape := ⟨3, ![4, 14, 262144]⟩
abbrev S4x14 : Shape := ⟨2, ![4, 14]⟩
abbrev S4x14x1 : Shape := ⟨3, ![4, 14, 1]⟩

abbrev nBuf : Space → Nat
  | .hbm => 144
  | .vmem => 0
  | .smem => 0
  | _ => 0

abbrev hbmTy0_0 (i : Nat) : BufTy := match i % 128 with
  | 0 => ⟨S4x14x512x512, .f32⟩
  | 1 => ⟨S4x14x512x512, .f32⟩
  | 2 => ⟨S4x1x512x512, .i32⟩
  | 3 => ⟨S14, .i32⟩
  | 4 => ⟨S1x14x1x1, .i32⟩
  | 5 => ⟨S4x14x512x512, .i32⟩
  | 6 => ⟨S4x14x512x512, .i32⟩
  | 7 => ⟨S4x14x512x512, .i1⟩
  | 8 => ⟨S_, .i32⟩
  | 9 => ⟨S1, .i32⟩
  | 10 => ⟨S_, .i1⟩
  | 11 => ⟨S4x512x512, .i1⟩
  | 12 => ⟨S4x14x512x512, .i1⟩
  | 13 => ⟨S_, .i1⟩
  | 14 => ⟨S4x14x514x514, .i1⟩
  | 15 => ⟨S4x14x512x512, .i1⟩
  | 16 => ⟨S4x14x512x512, .i1⟩
  | 17 => ⟨S4x14x512x512, .i1⟩
  | 18 => ⟨S4x14x512x512, .i1⟩
  | 19 => ⟨S4x14x512x512, .i1⟩
  | 20 => ⟨S4x14x512x512, .i1⟩
  | 21 => ⟨S4x14x512x512, .i1⟩
  | 22 => ⟨S4x14x512x512, .i1⟩
  | 23 => ⟨S_, .i1⟩
  | 24 => ⟨S4x14x514x514, .i1⟩
  | 25 => ⟨S4x14x512x512, .i1⟩
  | 26 => ⟨S4x14x512x512, .i1⟩
  | 27 => ⟨S4x14x512x512, .i1⟩
  | 28 => ⟨S4x14x512x512, .i1⟩
  | 29 => ⟨S4x14x512x512, .i1⟩
  | 30 => ⟨S4x14x512x512, .i1⟩
  | 31 => ⟨S4x14x512x512, .i1⟩
  | 32 => ⟨S4x14x512x512, .i1⟩
  | 33 => ⟨S4x14x512x512, .i1⟩
  | 34 => ⟨S4x14x512x512, .i1⟩
  | 35 => ⟨S4x14x512x512, .i1⟩
  | 36 => ⟨S4x14x512x512, .f32⟩
  | 37 => ⟨S4x14x262144, .f32⟩
  | 38 => ⟨S4x14x512x512, .f32⟩
  | 39 => ⟨S4x14x262144, .f32⟩
  | 40 => ⟨S4x14x262144, .f32⟩
  | 41 => ⟨S4x14x262144, .f32⟩
  | 42 => ⟨S4x14x262144, .f32⟩
  | 43 => ⟨S4x14x262144, .f32⟩
  | 44 => ⟨S_, .f32⟩
  | 45 => ⟨S4x14x262144, .f32⟩
  | 46 => ⟨S4x14x262144, .f32⟩
  | 47 => ⟨S_, .f32⟩
  | 48 => ⟨S4x14, .f32⟩
  | 49 => ⟨S_, .f32⟩
  | 50 => ⟨S4x14, .f32⟩
  | 51 => ⟨S4x14, .f32⟩
  | 52 => ⟨S4x14x1, .f32⟩
  | 53 => ⟨S4x14x262144, .f32⟩
  | 54 => ⟨S4x14x262144, .f32⟩
  | 55 => ⟨S4x14x262144, .f32⟩
  | 56 => ⟨S_, .f32⟩
  | 57 => ⟨S4x14, .f32⟩
  | 58 => ⟨S4x14x1, .f32⟩
  | 59 => ⟨S4x14x1, .f32⟩
  | 60 => ⟨S4x14x262144, .f32⟩
  | 61 => ⟨S4x14x262144, .f32⟩
  | 62 => ⟨S_, .f32⟩
  | 63 => ⟨S4x14x262144, .f32⟩
  | 64 => ⟨S4x14x262144, .f32⟩
  | 65 => ⟨S_, .f32⟩
  | 66 => ⟨S4x14, .f32⟩
  | 67 => ⟨S_, .f32⟩
  | 68 => ⟨S4x14, .f32⟩
  | 69 => ⟨S4x14, .f32⟩
  | 70 => ⟨S4x14x1, .f32⟩
  | 71 => ⟨S4x14x262144, .f32⟩
  | 72 => ⟨S4x14x262144, .f32⟩
  | 73 => ⟨S4x14x262144, .f32⟩
  | 74 => ⟨S_, .f32⟩
  | 75 => ⟨S4x14, .f32⟩
  | 76 => ⟨S4x14x1, .f32⟩
  | 77 => ⟨S4x14x1, .f32⟩
  | 78 => ⟨S4x14x262144, .f32⟩
  | 79 => ⟨S4x14x262144, .f32⟩
  | 80 => ⟨S4x14x262144, .f32⟩
  | 81 => ⟨S4x14x262144, .f32⟩
  | 82 => ⟨S4x14x262144, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S4x14x262144, .f32⟩
  | 94 => ⟨S4x14x262144, .f32⟩
  | 95 => ⟨S_, .f32⟩
  | 96 => ⟨S4x14x262144, .f32⟩
  | 97 => ⟨S4x14x262144, .f32⟩
  | 98 => ⟨S_, .f32⟩
  | 99 => ⟨S4x14, .f32⟩
  | 100 => ⟨S_, .f32⟩
  | 101 => ⟨S4x14, .f32⟩
  | 102 => ⟨S4x14, .f32⟩
  | 103 => ⟨S4x14x1, .f32⟩
  | 104 => ⟨S4x14x262144, .f32⟩
  | 105 => ⟨S4x14x262144, .f32⟩
  | 106 => ⟨S4x14x262144, .f32⟩
  | 107 => ⟨S_, .f32⟩
  | 108 => ⟨S4x14, .f32⟩
  | 109 => ⟨S4x14x1, .f32⟩
  | 110 => ⟨S4x14x1, .f32⟩
  | 111 => ⟨S4x14x262144, .f32⟩
  | 112 => ⟨S4x14x262144, .f32⟩
  | 113 => ⟨S_, .f32⟩
  | 114 => ⟨S4x14x262144, .f32⟩
  | 115 => ⟨S4x14x262144, .f32⟩
  | 116 => ⟨S_, .f32⟩
  | 117 => ⟨S4x14, .f32⟩
  | 118 => ⟨S_, .f32⟩
  | 119 => ⟨S4x14, .f32⟩
  | 120 => ⟨S4x14, .f32⟩
  | 121 => ⟨S4x14x1, .f32⟩
  | 122 => ⟨S4x14x262144, .f32⟩
  | 123 => ⟨S4x14x262144, .f32⟩
  | 124 => ⟨S4x14x262144, .f32⟩
  | 125 => ⟨S_, .f32⟩
  | 126 => ⟨S4x14, .f32⟩
  | 127 => ⟨S4x14x1, .f32⟩
  | _ => ⟨S4x14x512x512, .f32⟩

abbrev hbmTy0_1 (i : Nat) : BufTy := match i % 128 with
  | 0 => ⟨S4x14x1, .f32⟩
  | 1 => ⟨S4x14x262144, .f32⟩
  | 2 => ⟨S4x14x262144, .f32⟩
  | 3 => ⟨S4x14x262144, .f32⟩
  | 4 => ⟨S4x14x262144, .f32⟩
  | 5 => ⟨S4x14x262144, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S4x14x512x512, .f32⟩

abbrev hbmTy (i : Nat) : BufTy := match i / 128 with
  | 0 => hbmTy0_0 i
  | 1 => hbmTy0_1 i
  | _ => ⟨S4x14x512x512, .f32⟩

abbrev bufTy : (tb : Table) → Fin (tcTables nBuf tb) → BufTy
  | .hbm, ⟨i, _⟩ => hbmTy i
  | _, _ => ⟨S4x14x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst : Ref sig .tc := ⟨.hbm, 44, rfl⟩
abbrev main_v37 : Ref sig .tc := ⟨.hbm, 45, rfl⟩
abbrev main_v38 : Ref sig .tc := ⟨.hbm, 46, rfl⟩
abbrev main_call2_cst : Ref sig .tc := ⟨.hbm, 47, rfl⟩
abbrev main_call2_v0 : Ref sig .tc := ⟨.hbm, 48, rfl⟩
abbrev main_call2_cst_0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_cst_1 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_call3_cst : Ref sig .tc := ⟨.hbm, 65, rfl⟩
abbrev main_call3_v0 : Ref sig .tc := ⟨.hbm, 66, rfl⟩
abbrev main_call3_cst_0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_cst_1 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_4 : Ref sig .tc := ⟨.hbm, 83, rfl⟩
abbrev main_v46 : Ref sig .tc := ⟨.hbm, 84, rfl⟩
abbrev main_cst_5 : Ref sig .tc := ⟨.hbm, 85, rfl⟩
abbrev main_v47 : Ref sig .tc := ⟨.hbm, 86, rfl⟩
abbrev main_cst_6 : Ref sig .tc := ⟨.hbm, 87, rfl⟩
abbrev main_v48 : Ref sig .tc := ⟨.hbm, 88, rfl⟩
abbrev main_cst_7 : Ref sig .tc := ⟨.hbm, 89, rfl⟩
abbrev main_v49 : Ref sig .tc := ⟨.hbm, 90, rfl⟩
abbrev main_cst_8 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_9 : Ref sig .tc := ⟨.hbm, 95, rfl⟩
abbrev main_v53 : Ref sig .tc := ⟨.hbm, 96, rfl⟩
abbrev main_v54 : Ref sig .tc := ⟨.hbm, 97, rfl⟩
abbrev main_call4_cst : Ref sig .tc := ⟨.hbm, 98, rfl⟩
abbrev main_call4_v0 : Ref sig .tc := ⟨.hbm, 99, rfl⟩
abbrev main_call4_cst_0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_v6 : Ref sig .tc := ⟨.hbm, 106, rfl⟩
abbrev main_call4_cst_1 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_v55 : Ref sig .tc := ⟨.hbm, 112, rfl⟩
abbrev main_cst_10 : Ref sig .tc := ⟨.hbm, 113, rfl⟩
abbrev main_v56 : Ref sig .tc := ⟨.hbm, 114, rfl⟩
abbrev main_v57 : Ref sig .tc := ⟨.hbm, 115, rfl⟩
abbrev main_call5_cst : Ref sig .tc := ⟨.hbm, 116, rfl⟩
abbrev main_call5_v0 : Ref sig .tc := ⟨.hbm, 117, rfl⟩
abbrev main_call5_cst_0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_call5_cst_1 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_cst_11 : Ref sig .tc := ⟨.hbm, 134, rfl⟩
abbrev main_v62 : Ref sig .tc := ⟨.hbm, 135, rfl⟩
abbrev main_cst_12 : Ref sig .tc := ⟨.hbm, 136, rfl⟩
abbrev main_v63 : Ref sig .tc := ⟨.hbm, 137, rfl⟩
abbrev main_cst_13 : Ref sig .tc := ⟨.hbm, 138, rfl⟩
abbrev main_v64 : Ref sig .tc := ⟨.hbm, 139, rfl⟩
abbrev main_cst_14 : Ref sig .tc := ⟨.hbm, 140, rfl⟩
abbrev main_v65 : Ref sig .tc := ⟨.hbm, 141, rfl⟩
abbrev main_cst_15 : Ref sig .tc := ⟨.hbm, 142, rfl⟩
abbrev main_v66 : Ref sig .tc := ⟨.hbm, 143, rfl⟩

abbrev nD : Nat := 1
abbrev τ : Topo := Topo.v7x

variable {F : FTy → Type} [FloatOps F]

class Facts₀ : Prop where
  shapeCasts_S14_S1x14x1x1 : S14.ShapeCasts S1x14x1x1
  bcast_S4x1x512x512_S4x14x512x512_0_1_2_3 : S4x1x512x512.BroadcastsInDim S4x14x512x512 (![0, 1, 2, 3] : Fin 4 → Fin S4x14x512x512.rank)
  bcast_S1x14x1x1_S4x14x512x512_0_1_2_3 : S1x14x1x1.BroadcastsInDim S4x14x512x512 (![0, 1, 2, 3] : Fin 4 → Fin S4x14x512x512.rank)
  bcast_S_S1 : S_.BroadcastsInDim S1 (![] : Fin 0 → Fin S1.rank)
  bcast_S_S4x512x512 : S_.BroadcastsInDim S4x512x512 (![] : Fin 0 → Fin S4x512x512.rank)
  pads_S4x14x512x512_S4x14x514x514_000_000_110_110 : S4x14x512x512.Pads (![0, 0, 1, 1] : Fin 4 → Nat) ![0, 0, 1, 1] ![0, 0, 0, 0] S4x14x514x514
  h_S_ : 0 < S_.numel
  slices_S4x14x514x514_S4x14x512x512_0_0_0_1 : S4x14x514x514.Slices ![0, 0, 0, 1] S4x14x512x512
  slices_S4x14x514x514_S4x14x512x512_0_0_2_1 : S4x14x514x514.Slices ![0, 0, 2, 1] S4x14x512x512
  slices_S4x14x514x514_S4x14x512x512_0_0_1_0 : S4x14x514x514.Slices ![0, 0, 1, 0] S4x14x512x512
  slices_S4x14x514x514_S4x14x512x512_0_0_1_2 : S4x14x514x514.Slices ![0, 0, 1, 2] S4x14x512x512
  shapeCasts_S4x14x512x512_S4x14x262144 : S4x14x512x512.ShapeCasts S4x14x262144
  bcast_S_S4x14x262144 : S_.BroadcastsInDim S4x14x262144 (![] : Fin 0 → Fin S4x14x262144.rank)
  reducesTo_S4x14x262144_S4x14_d2 : S4x14x262144.ReducesTo [2] S4x14
  bcast_S_S4x14 : S_.BroadcastsInDim S4x14 (![] : Fin 0 → Fin S4x14.rank)
  bcast_S4x14_S4x14x1_0_1 : S4x14.BroadcastsInDim S4x14x1 (![0, 1] : Fin 2 → Fin S4x14x1.rank)
  bcast_S4x14x1_S4x14x262144_0_1_2 : S4x14x1.BroadcastsInDim S4x14x262144 (![0, 1, 2] : Fin 3 → Fin S4x14x262144.rank)
  reducesTo_S4x14x262144_S_d0_1_2 : S4x14x262144.ReducesTo [0, 1, 2] S_
  scatter_S4x14x512x512_S1_S4x512x512_012_1_1_0_wf : ScatterDims.WF S4x14x512x512 S1 S4x512x512 [0, 1, 2] [1] [1] 0

variable [Facts₀]

def scatter_S4x14x512x512_S1_S4x512x512_012_1_1_0 : ScatterDims S4x14x512x512 S1 S4x512x512 where
  updateWindowDims := [0, 1, 2]
  insertedWindowDims := [1]
  scatterDimsToOperandDims := [1]
  indexVectorDim := 0
  wf := scatter_S4x14x512x512_S1_S4x512x512_012_1_1_0_wf

class Facts : Prop extends Facts₀ where

variable [Facts]
-- ==== Proof.Spec.lean ====
/-
  What the two programs compute, as functions of the three argument arrays.

  Per image `b` and class `c` the label plane gives two masks over the 512 × 512 pixels: a pixel is an EDGE pixel of
  the class when the cross-shaped dilation and erosion of the class's indicator differ there, and a BODY pixel when
  it is of the class and not an edge pixel; beyond the border no pixel is of any class. A prediction tile is masked
  (kept where the mask is set, zero elsewhere), both masked tiles go through a log-softmax over the WHOLE tile, and
  the tile's divergence is `∑ softmax(T) · (logsoftmax(T) − logsoftmax(S))`. The loss is a fixed multiple of the sum
  of the tiles' divergences.

  The two programs spell this differently, and the definitions below keep both spellings: the kernel selects
  (`selTile`), takes the softmax as `exp(shifted) · (1 / Z)` (`klK`), runs over the classes 1 … 13 only and divides
  once by 56 (`lossK`); the reference multiplies by the mask as a number (`mulTile`), takes the softmax as
  `exp(logsoftmax)` (`klR`), runs over all 14 classes with class 0's indicator cleared, and divides by 14 and by 4
  (`lossR`).
-/
import Idealize.ShloMosaic.PureOps.Ideal
import Idealize.ShloMosaic.Lib.ValueIdx

noncomputable section

open scoped BigOperators

namespace Cert.Bpkd

open Idealize.ShloMosaic Idealize.ShloMosaic.ValueIdx

/-- The prediction arrays' shape, the label array's, and one tile's. -/
abbrev SPred : Shape := ⟨4, ![4, 14, 512, 512]⟩
abbrev SLab : Shape := ⟨4, ![4, 1, 512, 512]⟩
abbrev STile : Shape := ⟨2, ![512, 512]⟩

/-! ## One tile: the log-softmax over all of it, and the divergence -/

section Tile
variable {ι : Type} [Fintype ι]

/-- The largest entry of a tile. -/
def tmax (x : ι → EReal) : EReal := Finset.univ.sup x
/-- An entry less the largest. -/
def tsh (x : ι → EReal) (i : ι) : EReal := x i - tmax x
/-- The normaliser: the sum of the exponentials of the shifted entries. -/
def tZ (x : ι → EReal) : EReal := ∑ i, Ideal.exp (tsh x i)
/-- The log-softmax of a tile at an entry. -/
def tlsm (x : ι → EReal) (i : ι) : EReal := tsh x i - Ideal.log (tZ x)
/-- The divergence with the softmax taken as `exp(shifted) · (1 / Z)`. -/
def klK (s t : ι → EReal) : EReal := ∑ i, (Ideal.exp (tsh t i) * Ideal.div 1 (tZ t)) * (tlsm t i - tlsm s i)
/-- The divergence with the softmax taken as `exp(logsoftmax)`. -/
def klR (s t : ι → EReal) : EReal := ∑ i, Ideal.exp (tlsm t i) * (tlsm t i - tlsm s i)

end Tile

/-! ## The masks -/

/-- Pixel `(h − 1, w − 1)` of a label plane is of the class whose word is `cw`: the coordinates are shifted by one, so
    that rows and columns 0 and 513 are the border, where no pixel is of any class. -/
def clsAt (G : Fin 512 → Fin 512 → BitVec 32) (cw : BitVec 32) (h w : ℕ) : BitVec 1 :=
  if hh : (1 ≤ h ∧ h ≤ 512) ∧ (1 ≤ w ∧ w ≤ 512) then
    IntOp.cmpi .eq (G ⟨h - 1, by omega⟩ ⟨w - 1, by omega⟩) cw
  else 0#1

/-- Image `b`'s label plane. -/
def plane (g : IVec SLab 32) (b : Fin 4) : Fin 512 → Fin 512 → BitVec 32 := fun h w => g (ix4 b 0 h w)

/-- Dilation xor erosion, from the indicator at a pixel and at its four neighbours. -/
def edge5 (n0 n1 n2 n3 n4 : BitVec 1) : BitVec 1 :=
  IntOp.xori (IntOp.ori (IntOp.ori (IntOp.ori (IntOp.ori n0 n1) n2) n3) n4)
    (IntOp.andi (IntOp.andi (IntOp.andi (IntOp.andi n0 n1) n2) n3) n4)
/-- Of the class and not an edge pixel. -/
def body5 (n0 n1 n2 n3 n4 : BitVec 1) : BitVec 1 :=
  IntOp.andi (IntOp.xori (edge5 n0 n1 n2 n3 n4) 1#1) n0

/-- The edge mask of an indicator `n` (in shifted coordinates) at pixel `(h, w)`: the pixel, the row before, the row
    after, the column before, the column after. -/
def edgeOf (n : ℕ → ℕ → BitVec 1) (h w : Fin 512) : BitVec 1 :=
  edge5 (n (h.val + 1) (w.val + 1)) (n h.val (w.val + 1)) (n (h.val + 2) (w.val + 1)) (n (h.val + 1) w.val) (n (h.val + 1) (w.val + 2))
/-- The body mask likewise. -/
def bodyOf (n : ℕ → ℕ → BitVec 1) (h w : Fin 512) : BitVec 1 :=
  body5 (n (h.val + 1) (w.val + 1)) (n h.val (w.val + 1)) (n (h.val + 2) (w.val + 1)) (n (h.val + 1) w.val) (n (h.val + 1) (w.val + 2))

/-- The reference's indicator: class 0's is cleared. -/
def clsAtR (g : IVec SLab 32) (b : Fin 4) (c : Fin 14) (h w : ℕ) : BitVec 1 :=
  if c.val = 0 then 0#1 else clsAt (plane g b) (BitVec.ofNat 32 c.val) h w

/-! ## Masked tiles -/

/-- A tile masked by selection: the entry where the mask is set, zero elsewhere. -/
def sel (M : STile.Idx → BitVec 1) (X : STile.Idx → EReal) : STile.Idx → EReal :=
  fun j => Scalar.select (M j) (X j) 0

/-- Tile `(b, c)` of a prediction array. -/
def tileOf (X : FVec Ideal SPred .f32) (b : Fin 4) (c : Fin 14) : STile.Idx → EReal := fun j => X (ix4 b c (j 0) (j 1))

/-- A mask given by coordinates, as a mask over the tile's indices. -/
def maskOf (M : Fin 512 → Fin 512 → BitVec 1) : STile.Idx → BitVec 1 := fun j => M (j 0) (j 1)

/-- The kernel's masked tile. -/
def selTile (M : Fin 512 → Fin 512 → BitVec 1) (X : FVec Ideal SPred .f32) (b : Fin 4) (c : Fin 14) : STile.Idx → EReal :=
  sel (maskOf M) (tileOf X b c)

/-- The reference's masked tile: the entry times the mask bit as a number, over one. -/
def mulTile (M : Fin 512 → Fin 512 → BitVec 1) (X : FVec Ideal SPred .f32) (b : Fin 4) (c : Fin 14) : STile.Idx → EReal :=
  fun j => Ideal.div (X (ix4 b c (j 0) (j 1)) * (((M (j 0) (j 1)).toNat : ℝ) : EReal)) 1

/-! ## The tiles' divergences, and the two results -/

/-- The kernel's edge divergence of image `b` at its grid step `s` (class `s + 1`). -/
def edgeP (S T : FVec Ideal SPred .f32) (g : IVec SLab 32) (b : Fin 4) (s : Fin 13) : EReal :=
  klK (selTile (edgeOf (clsAt (plane g b) (BitVec.ofNat 32 (s.val + 1)))) S b s.succ)
    (selTile (edgeOf (clsAt (plane g b) (BitVec.ofNat 32 (s.val + 1)))) T b s.succ)
/-- Its body divergence. -/
def bodyP (S T : FVec Ideal SPred .f32) (g : IVec SLab 32) (b : Fin 4) (s : Fin 13) : EReal :=
  klK (selTile (bodyOf (clsAt (plane g b) (BitVec.ofNat 32 (s.val + 1)))) S b s.succ)
    (selTile (bodyOf (clsAt (plane g b) (BitVec.ofNat 32 (s.val + 1)))) T b s.succ)

/-- The reference's edge divergence of image `b` and class `c`. -/
def edgeQ (S T : FVec Ideal SPred .f32) (g : IVec SLab 32) (b : Fin 4) (c : Fin 14) : EReal :=
  klR (mulTile (edgeOf (clsAtR g b c)) S b c) (mulTile (edgeOf (clsAtR g b c)) T b c)
/-- Its body divergence. -/
def bodyQ (S T : FVec Ideal SPred .f32) (g : IVec SLab 32) (b : Fin 4) (c : Fin 14) : EReal :=
  klR (mulTile (bodyOf (clsAtR g b c)) S b c) (mulTile (bodyOf (clsAtR g b c)) T b c)

/-- The kernel's result: the weight times the sum over the images of the sums over the thirteen steps, over 56. -/
def lossK (w : EReal) (P : Fin 4 → Fin 13 → EReal) : EReal :=
  Ideal.div (w * (0 + ∑ b : Fin 4, ∑ s : Fin 13, P b s)) ((56 : ℝ) : EReal)
/-- The reference's: the weight times (one times the sum over all 56 tiles, over 14), over 4. -/
def lossR (w : EReal) (Q : Fin 4 → Fin 14 → EReal) : EReal :=
  Ideal.div (w * Ideal.div (1 * (0 + ∑ b : Fin 4, ∑ c : Fin 14, Q b c)) ((14 : ℝ) : EReal)) ((4 : ℝ) : EReal)

end Cert.Bpkd

end
-- ==== Proof.Consts.lean ====
/-
  The float literals the two programs spell, as the extended reals their words denote: zero, one, minus infinity,
  the two weights 500 and 200, and the divisors 56, 14 and 4.
-/
import Idealize.ShloMosaic.PureOps.Ideal

noncomputable section

namespace Cert.Bpkd.Consts

open Idealize.ShloMosaic

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_neg_inf : Ideal.ofBits .f32 0xFF800000#32 = ⊥ := by
  simp [Ideal.ofBits, Ideal.ieee]
theorem ofBits_500 : Ideal.ofBits .f32 0x43FA0000#32 = ((500 : ℝ) : EReal) := by
  simp [Ideal.ofBits, Ideal.ieee, -EReal.coe_mul]; norm_num
theorem ofBits_200 : Ideal.ofBits .f32 0x43480000#32 = ((200 : ℝ) : EReal) := by
  simp [Ideal.ofBits, Ideal.ieee, -EReal.coe_mul]; norm_num
theorem ofBits_56 : Ideal.ofBits .f32 0x42600000#32 = ((56 : ℝ) : EReal) := by
  simp [Ideal.ofBits, Ideal.ieee, -EReal.coe_mul]; norm_num
theorem ofBits_14 : Ideal.ofBits .f32 0x41600000#32 = ((14 : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num

end Cert.Bpkd.Consts

end
-- ==== Proof.TileMath.lean ====
/- The divergence of one tile: its two spellings agree on finite tiles; an all-zero pair of tiles has divergence zero. -/
import proofs.«401587_j24979529793865_3_alg».proof.Proof.Spec
import Mathlib.Data.EReal.Basic
import Mathlib.Data.EReal.Operations
import Mathlib.Analysis.SpecialFunctions.Log.Basic
import Mathlib.Analysis.SpecialFunctions.Exp
import Mathlib.Data.Fintype.Lattice
import Mathlib.Algebra.BigOperators.Group.Finset.Basic

noncomputable section

open scoped BigOperators

namespace Cert.Bpkd

open Idealize.ShloMosaic

variable {ι κ : Type} [Fintype ι] [Fintype κ]

/-- The largest entry as a fold of `max` from minus infinity, the form both programs' reductions take. -/
theorem tmax_eq_fold (x : ι → EReal) : tmax x = Finset.univ.fold max ⊥ x := rfl

/-! ## Finite tiles: everything is real arithmetic -/

/-- The inclusion of the reals in the extended reals carries a finite sum to the sum of the inclusions. -/
private theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On a nonempty tile of real numbers the largest entry is one of the entries, hence real; so every shifted entry is
    a real `a i`, the normaliser is the real `Z = ∑ exp (a i)`, positive as a nonempty sum of positive numbers, and the
    log-softmax is the real `a i − log Z`. -/
private theorem tile_real [Nonempty ι] (x : ι → EReal) (hx : ∀ i, ∃ r : ℝ, x i = (r : EReal)) :
    ∃ (a : ι → ℝ) (Z : ℝ), 0 < Z ∧ (∀ i, tsh x i = (a i : EReal)) ∧ tZ x = (Z : EReal) ∧
      ∀ i, tlsm x i = ((a i - Real.log Z : ℝ) : EReal) := by
  choose r hr using hx
  obtain ⟨i0, -, h0⟩ := Finset.exists_mem_eq_sup Finset.univ Finset.univ_nonempty x
  have hm : tmax x = (r i0 : EReal) := by unfold tmax; rw [h0, hr i0]
  have ha : ∀ i, tsh x i = ((r i - r i0 : ℝ) : EReal) := fun i => by
    unfold tsh; rw [hm, hr i, EReal.coe_sub]
  have hZ : 0 < ∑ i, Real.exp (r i - r i0) :=
    Finset.sum_pos (fun i _ => Real.exp_pos _) Finset.univ_nonempty
  have hZx : tZ x = ((∑ i, Real.exp (r i - r i0) : ℝ) : EReal) := by
    unfold tZ
    rw [coe_sum]
    exact Finset.sum_congr rfl fun i _ => by rw [ha i, Ideal.exp_coe]
  refine ⟨fun i => r i - r i0, ∑ i, Real.exp (r i - r i0), hZ, ha, hZx, fun i => ?_⟩
  unfold tlsm
  rw [ha i, hZx, Ideal.log_coe, if_neg (not_le.mpr hZ), ← EReal.coe_sub]

/-- The softmax of a finite tile, spelt `exp(shifted) · (1 / Z)` or `exp(logsoftmax)`:
    `exp (a − log Z) = exp a / exp (log Z) = exp a · (1 / Z)` for `Z > 0`. -/
private theorem softmax_two_ways [Nonempty ι] (t : ι → EReal) (ht : ∀ i, ∃ r : ℝ, t i = (r : EReal)) (i : ι) :
    Ideal.exp (tsh t i) * Ideal.div 1 (tZ t) = Ideal.exp (tlsm t i) := by
  obtain ⟨a, Z, hZ, ha, hZt, hl⟩ := tile_real t ht
  rw [hl i, ha i, hZt, Ideal.exp_coe, Ideal.exp_coe, Ideal.div_coe hZ.ne', one_mul, ← EReal.coe_mul,
    Real.exp_sub, Real.exp_log hZ, mul_one_div]

/-- On tiles all of whose entries are real numbers the two spellings of the divergence agree. -/
theorem klK_eq_klR [Nonempty ι] (s t : ι → EReal) (hs : ∀ i, ∃ r : ℝ, s i = (r : EReal)) (ht : ∀ i, ∃ r : ℝ, t i = (r : EReal)) :
    klK s t = klR s t := by
  unfold klK klR
  exact Finset.sum_congr rfl fun i _ => by rw [softmax_two_ways t ht i]

/-- … and the divergence is a real number. -/
theorem klR_real [Nonempty ι] (s t : ι → EReal) (hs : ∀ i, ∃ r : ℝ, s i = (r : EReal)) (ht : ∀ i, ∃ r : ℝ, t i = (r : EReal)) :
    ∃ r : ℝ, klR s t = (r : EReal) := by
  obtain ⟨a, Z, hZ, ha, hZt, hl⟩ := tile_real t ht
  obtain ⟨b, W, hW, hb, hWs, hk⟩ := tile_real s hs
  refine ⟨∑ i, Real.exp (a i - Real.log Z) * ((a i - Real.log Z) - (b i - Real.log W)), ?_⟩
  unfold klR
  rw [coe_sum]
  exact Finset.sum_congr rfl fun i _ => by rw [hl i, hk i, Ideal.exp_coe, ← EReal.coe_sub, ← EReal.coe_mul]

/-- Two all-zero tiles have divergence zero. -/
theorem klR_zero [Nonempty ι] : klR (fun _ : ι => (0 : EReal)) (fun _ : ι => (0 : EReal)) = 0 := by
  obtain ⟨a, Z, hZ, ha, hZt, hl⟩ := tile_real (fun _ : ι => (0 : EReal)) (fun _ => ⟨0, EReal.coe_zero.symm⟩)
  unfold klR
  exact Finset.sum_eq_zero fun i _ => by rw [hl i, ← EReal.coe_sub, sub_self, EReal.coe_zero, mul_zero]

/-! ## Re-indexing a tile -/

/-- The largest entry does not depend on the indexing: each family's entries are entries of the other. -/
private theorem tmax_comp_equiv (e : κ ≃ ι) (x : ι → EReal) : tmax (fun k => x (e k)) = tmax x := by
  unfold tmax
  apply le_antisymm
  · exact Finset.sup_le fun k _ => Finset.le_sup (f := x) (Finset.mem_univ (e k))
  · refine Finset.sup_le fun i _ => ?_
    have h := Finset.le_sup (f := fun k => x (e k)) (Finset.mem_univ (e.symm i))
    rwa [Equiv.apply_symm_apply] at h

private theorem tsh_comp_equiv (e : κ ≃ ι) (x : ι → EReal) (k : κ) : tsh (fun k => x (e k)) k = tsh x (e k) := by
  unfold tsh; rw [tmax_comp_equiv]

private theorem tZ_comp_equiv (e : κ ≃ ι) (x : ι → EReal) : tZ (fun k => x (e k)) = tZ x := by
  unfold tZ
  rw [← Equiv.sum_comp e (fun i => Ideal.exp (tsh x i))]
  exact Finset.sum_congr rfl fun k _ => by rw [tsh_comp_equiv]

private theorem tlsm_comp_equiv (e : κ ≃ ι) (x : ι → EReal) (k : κ) : tlsm (fun k => x (e k)) k = tlsm x (e k) := by
  unfold tlsm; rw [tsh_comp_equiv, tZ_comp_equiv]

/-- The divergence does not depend on how the tile's entries are indexed. -/
theorem klR_comp_equiv (e : κ ≃ ι) (s t : ι → EReal) : klR (fun k => s (e k)) (fun k => t (e k)) = klR s t := by
  unfold klR
  rw [← Equiv.sum_comp e (fun i => Ideal.exp (tlsm t i) * (tlsm t i - tlsm s i))]
  exact Finset.sum_congr rfl fun k _ => by rw [tlsm_comp_equiv, tlsm_comp_equiv]
theorem klK_comp_equiv (e : κ ≃ ι) (s t : ι → EReal) : klK (fun k => s (e k)) (fun k => t (e k)) = klK s t := by
  unfold klK
  rw [← Equiv.sum_comp e (fun i => (Ideal.exp (tsh t i) * Ideal.div 1 (tZ t)) * (tlsm t i - tlsm s i))]
  exact Finset.sum_congr rfl fun k _ => by rw [tsh_comp_equiv, tZ_comp_equiv, tlsm_comp_equiv, tlsm_comp_equiv]

end Cert.Bpkd

end
-- ==== Proof.KPayF.lean ====
/-
  The kernel's float payloads at the ideal values: what one grid step adds to an accumulator block.

  Both steps do the same thing to a pair of tiles. Each tile is masked by selection against zero; its largest entry is
  taken as the maximum of the row maxima, its normaliser as the sum of the row sums of the exponentials of the shifted
  entries; the softmax of the second tile is `exp(shifted) · (1 / Z)`, the two log-softmaxes are subtracted, and the
  products are summed, again rows first. A maximum of row maxima is the maximum over the tile, and a sum of row sums the
  sum over the tile, so the number added to every entry of the accumulator block is `klK` of the two masked tiles.
-/
import proofs.«401587_j24979529793865_3_alg».proof.Proof.Spec
import proofs.«401587_j24979529793865_3_alg».proof.Proof.Consts
import proofs.«401587_j24979529793865_3_alg».proof.Proof.TileMath
import proofs.«401587_j24979529793865_3_alg».proof.Proof.Gen.KernelIdeal.Skeleton
import Idealize.ShloMosaic.PureOps.Ideal.Laws
import Idealize.ShloMosaic.Lib.Pipeline.Value
import Idealize.ShloMosaic.Lib.ValueLayout

noncomputable section

open scoped BigOperators

namespace Cert.Bpkd.K

open Idealize.ShloMosaic Idealize.ShloMosaic.ValueIdx Cert.KernelIdeal Cert.KernelIdeal.Gen

namespace PayF

/-! ## Layout: the column forms, and the indices a one-axis reduction inserts -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index of a row reduction: row `a`, column `b`. -/
theorem lift_row (h1 : S512x512.Reduces [1] S512) (a b : Fin 512) : h1.lift (ix1 a) b = ix2 a b :=
  Shape.idx_ext₂ rfl rfl

/-- The source index of the column reduction of a one-column array: row `a`, column `u`. -/
theorem lift_col (h2 : S512x1.Reduces [0] S1) (u : Fin 1) (a : Fin 512) : h2.lift (ix1 u) a = ix2 a u :=
  Shape.idx_ext₂ rfl rfl

/-- A `[1, 1]` array broadcast to any rank-2 shape reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The two-level reductions of a tile -/

theorem sum2_apply (X : FVec Ideal S512x512 .f32) (h1 : S512x512.Reduces [1] S512) (hc1 : S512.ShapeCasts S512x1)
    (h2 : S512x1.Reduces [0] S1) (hc2 : S1.ShapeCasts S1x1) (hφ : FKind.Formats .f32)
    (hacc : (0x00000000#32 : BitVec 32) = FKind.add.neutral .f32 hφ) (k : S1x1.Idx) :
    shapeCast S1x1 (multiReduction .add [0] S1 (shapeCast S512x1 (multiReduction .add [1] S512 X 0x00000000#32 h1 hφ hacc) hc1) 0x00000000#32 h2 hφ hacc) hc2 k
      = ∑ i : S512x512.Idx, X i := by
  obtain ⟨u, v, rfl⟩ : ∃ u v, k = ix2 u v := ⟨k 0, k 1, eq_ix2 k⟩
  refine (shapeCast_a_1a_apply _ hc2 u v).trans ?_
  refine (Ideal.multiReduction_add_single _ _ h2 hφ hacc (ix1 v)).trans ?_
  rw [sum_idx2]
  show ∑ a : Fin 512, _ = _
  refine Finset.sum_congr rfl fun a _ => ?_
  rw [lift_col h2 v a]
  refine (shapeCast_a_a1_apply _ hc1 a v).trans ?_
  refine (Ideal.multiReduction_add_single X _ h1 hφ hacc (ix1 a)).trans ?_
  show ∑ b : Fin 512, _ = _
  refine Finset.sum_congr rfl fun b _ => ?_
  exact congrArg X (lift_row h1 a b)

/-- A `[1, 1, a, b]` array cast to `[a, b]` reads, at `(h, w)`, the operand at `(0, 0, h, w)`. -/
theorem shapeCast_11ab_ab_apply {α : Type} {a b : ℕ} (x : (⟨4, ![1, 1, a, b]⟩ : Shape).Idx → α)
    (hc : (⟨4, ![1, 1, a, b]⟩ : Shape).ShapeCasts ⟨2, ![a, b]⟩) (h : Fin a) (w : Fin b) :
    shapeCast ⟨2, ![a, b]⟩ x hc (ix2 h w) = x (ix4 (0 : Fin 1) (0 : Fin 1) h w) :=
  shapeCast_apply x hc _ _ (by
    rw [Shape.rowMajor_val_four, Shape.rowMajor_val_two]
    show ((0 * 1 + 0) * a + h.val) * b + w.val = h.val * b + w.val
    rw [Nat.zero_mul, Nat.zero_add])

/-- The largest entry of a tile is the largest of its rows' largest entries. -/
theorem tmax_rows (X : S512x512.Idx → EReal) :
    tmax X = tmax (fun a : Fin 512 => tmax (fun b : Fin 512 => X (ix2 a b))) := by
  unfold tmax
  refine le_antisymm (Finset.sup_le fun i _ => ?_) (Finset.sup_le fun a _ => Finset.sup_le fun b _ => Finset.le_sup (Finset.mem_univ _))
  have hi : X i = X (ix2 (i 0) (i 1)) := congrArg X (eq_ix2 i)
  rw [hi]
  exact le_trans (Finset.le_sup (f := fun b => X (ix2 (i 0) b)) (Finset.mem_univ (i 1)))
    (Finset.le_sup (f := fun a => Finset.univ.sup fun b => X (ix2 a b)) (Finset.mem_univ (i 0)))

/-- A maximum reduction over one axis, from minus infinity: the largest entry along that axis. -/
theorem maxred_single {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = tmax (fun k : Fin (s.size a) => src (h.lift j k)) := by
  rw [tmax_eq_fold]
  refine (Ideal.multiReduction_maximumf_single src _ h hφ hacc j).trans ?_
  show Finset.univ.fold max (Ideal.ofBits .f32 0xFF800000#32) _ = _
  rw [Consts.ofBits_neg_inf]
  rfl

theorem max2_apply (X : FVec Ideal S512x512 .f32) (h1 : S512x512.Reduces [1] S512) (hc1 : S512.ShapeCasts S512x1)
    (h2 : S512x1.Reduces [0] S1) (hc2 : S1.ShapeCasts S1x1) (hφ : FKind.Formats .f32)
    (hacc : (0xFF800000#32 : BitVec 32) = FKind.maximumf.neutral .f32 hφ) (k : S1x1.Idx) :
    shapeCast S1x1 (multiReduction .maximumf [0] S1 (shapeCast S512x1 (multiReduction .maximumf [1] S512 X 0xFF800000#32 h1 hφ hacc) hc1) 0xFF800000#32 h2 hφ hacc) hc2 k
      = tmax X := by
  obtain ⟨u, v, rfl⟩ : ∃ u v, k = ix2 u v := ⟨k 0, k 1, eq_ix2 k⟩
  refine (shapeCast_a_1a_apply _ hc2 u v).trans ?_
  refine (maxred_single _ h2 hφ hacc (ix1 v)).trans ?_
  rw [tmax_rows X]
  show tmax (fun a : Fin 512 => _) = _
  refine congrArg tmax (funext fun a => ?_)
  rw [lift_col h2 v a]
  refine (shapeCast_a_a1_apply _ hc1 a v).trans ?_
  refine (maxred_single X h1 hφ hacc (ix1 a)).trans ?_
  show tmax (fun b : Fin 512 => _) = _
  refine congrArg tmax (funext fun b => ?_)
  exact congrArg X (lift_row h1 a b)

/-! ## A masked tile's shifted entries, normaliser and log-softmax, as the payloads spell them -/

/-- Selection against a broadcast zero is the masked tile. -/
theorem zsel_eq (m : IVec S512x512 1) (X : FVec Ideal S512x512 .f32) :
    select m X (broadcast S512x512 (Scalar.ofBits (F := Ideal) .f32 0x00000000#32)) = sel m X := by
  funext j
  show Scalar.select (m j) (X j) (Ideal.ofBits .f32 0x00000000#32) = Scalar.select (m j) (X j) 0
  rw [Consts.ofBits_zero]

/-- The tile's largest entry: the row maxima, then their maximum, as a `[1, 1]` array. -/
def max2 (T : FVec Ideal S512x512 .f32) : FVec Ideal S1x1 .f32 :=
  shapeCast S1x1 (multiReduction .maximumf [0] S1 (shapeCast S512x1 (multiReduction .maximumf [1] S512 T 0xFF800000#32 reduces_S512x512_S512 (.inl rfl) rfl) shapeCasts_S512_S512x1) 0xFF800000#32 reduces_S512x1_S1 (.inl rfl) rfl) shapeCasts_S1_S1x1
/-- The tile's sum: the row sums, then their sum, as a `[1, 1]` array. -/
def sum2 (T : FVec Ideal S512x512 .f32) : FVec Ideal S1x1 .f32 :=
  shapeCast S1x1 (multiReduction .add [0] S1 (shapeCast S512x1 (multiReduction .add [1] S512 T 0x00000000#32 reduces_S512x512_S512 (.inl rfl) rfl) shapeCasts_S512_S512x1) 0x00000000#32 reduces_S512x1_S1 (.inl rfl) rfl) shapeCasts_S1_S1x1
/-- The masked tile as the payloads select it. -/
def zselv (m : IVec S512x512 1) (X : FVec Ideal S512x512 .f32) : FVec Ideal S512x512 .f32 :=
  select m X (broadcast S512x512 (Scalar.ofBits (F := Ideal) .f32 0x00000000#32))
/-- The tile less its largest entry. -/
def shv (T : FVec Ideal S512x512 .f32) : FVec Ideal S512x512 .f32 :=
  subf T (broadcastTo S512x512 (max2 T) broadcasts_S1x1_S512x512)
/-- The normaliser. -/
def zv (T : FVec Ideal S512x512 .f32) : FVec Ideal S1x1 .f32 := sum2 (exp (shv T))
/-- The logarithm of the normaliser, over the tile. -/
def lzv (T : FVec Ideal S512x512 .f32) : FVec Ideal S512x512 .f32 :=
  broadcastTo S512x512 (log (zv T)) broadcasts_S1x1_S512x512
/-- The log-softmax. -/
def lsmv (T : FVec Ideal S512x512 .f32) : FVec Ideal S512x512 .f32 := subf (shv T) (lzv T)

theorem max2_eq (T : FVec Ideal S512x512 .f32) (k : S1x1.Idx) : max2 T k = tmax T := max2_apply T _ _ _ _ _ _ k
theorem sum2_eq (T : FVec Ideal S512x512 .f32) (k : S1x1.Idx) : sum2 T k = ∑ i : S512x512.Idx, T i := sum2_apply T _ _ _ _ _ _ k

theorem zselv_eq (m : IVec S512x512 1) (X : FVec Ideal S512x512 .f32) : zselv m X = sel m X := zsel_eq m X

theorem shv_apply (T : FVec Ideal S512x512 .f32) (j : S512x512.Idx) : shv T j = tsh T j := by
  obtain ⟨a, b, rfl⟩ : ∃ a b, j = ix2 a b := ⟨j 0, j 1, eq_ix2 j⟩
  unfold shv tsh
  refine (subf_apply _ _ _).trans ?_
  refine congrArg (T (ix2 a b) - ·) ?_
  refine (broadcastTo_11_ab_apply _ _ a b).trans ?_
  exact max2_eq T _

theorem zv_apply (T : FVec Ideal S512x512 .f32) (k : S1x1.Idx) : zv T k = tZ T := by
  unfold zv tZ
  refine (sum2_eq _ k).trans ?_
  refine Finset.sum_congr rfl fun i _ => ?_
  show Ideal.exp (shv T i) = _
  rw [shv_apply]

theorem lzv_apply (T : FVec Ideal S512x512 .f32) (j : S512x512.Idx) : lzv T j = Ideal.log (tZ T) := by
  obtain ⟨a, b, rfl⟩ : ∃ a b, j = ix2 a b := ⟨j 0, j 1, eq_ix2 j⟩
  unfold lzv
  refine (broadcastTo_11_ab_apply _ _ a b).trans ?_
  show Ideal.log (zv T _) = _
  rw [zv_apply]

theorem lsmv_apply (T : FVec Ideal S512x512 .f32) (j : S512x512.Idx) : lsmv T j = tlsm T j := by
  unfold lsmv tlsm
  refine (subf_apply _ _ _).trans ?_
  rw [shv_apply, lzv_apply]

/-! ## The payloads in those words -/

theorem pay16_def (m : IVec S512x512 1) (v : FVec Ideal S512x512 .f32) : k0_pay16 (F := Ideal) m v = shv (zselv m v) := rfl
theorem pay17_def (m : IVec S512x512 1) (v : FVec Ideal S512x512 .f32) : k0_pay17 (F := Ideal) m v = exp (shv (zselv m v)) := rfl
theorem pay18_def (m : IVec S512x512 1) (v : FVec Ideal S512x512 .f32) : k0_pay18 (F := Ideal) m v = zv (zselv m v) := rfl
theorem pay19_def (m : IVec S512x512 1) (v : FVec Ideal S512x512 .f32) : k0_pay19 (F := Ideal) m v = lsmv (zselv m v) := rfl
theorem pay20_def (m : IVec S512x512 1) (v : FVec Ideal S512x512 .f32) : k0_pay20 (F := Ideal) m v = shv (zselv m v) := rfl
theorem pay21_def (m : IVec S512x512 1) (v : FVec Ideal S512x512 .f32) : k0_pay21 (F := Ideal) m v = lzv (zselv m v) := rfl

theorem pay14_def (m : IVec S512x512 1) (x1 x2 : Vec Ideal S1x1x512x512 .f32) :
    k0_pay14 (F := Ideal) m x1 x2
      = mulf (mulf (exp (shv (zselv m (k0_pay13 (F := Ideal) x2))))
            (broadcastTo S512x512 (divf (broadcast S1x1 (Scalar.ofBits (F := Ideal) .f32 0x3F800000#32)) (zv (zselv m (k0_pay13 (F := Ideal) x2))))
              broadcasts_S1x1_S512x512))
          (subf (lsmv (zselv m (k0_pay13 (F := Ideal) x2))) (lsmv (zselv m (k0_pay12 (F := Ideal) x1)))) := rfl

/-- One over the normaliser, over the tile. -/
theorem recip_apply (Z : FVec Ideal S1x1 .f32) (hb : S1x1.Broadcasts S512x512) (j : S512x512.Idx) :
    broadcastTo S512x512 (divf (broadcast S1x1 (Scalar.ofBits (F := Ideal) .f32 0x3F800000#32)) Z) hb j
      = Ideal.div 1 (Z (ix2 (0 : Fin 1) (0 : Fin 1))) := by
  obtain ⟨a, b, rfl⟩ : ∃ a b, j = ix2 a b := ⟨j 0, j 1, eq_ix2 j⟩
  refine (broadcastTo_11_ab_apply _ hb a b).trans ?_
  refine (divf_apply _ _ _).trans ?_
  exact congrArg (Ideal.div · (Z (ix2 (0 : Fin 1) (0 : Fin 1)))) Consts.ofBits_one

/-- An accumulator block plus a tile's total, at an entry: the tail both steps share. -/
theorem acc_add_apply (V : FVec Ideal S512x512 .f32) (acc : Vec Ideal S1x8x128 .f32)
    (h1 : S512x512.Reduces [1] S512) (hc1 : S512.ShapeCasts S512x1) (h2 : S512x1.Reduces [0] S1) (hc2 : S1.ShapeCasts S1x1)
    (hφ : FKind.Formats .f32) (hacc : (0x00000000#32 : BitVec 32) = FKind.add.neutral .f32 hφ)
    (hd : S1x8x128.ShapeCasts S8x128) (hb : S1x1.Broadcasts S8x128) (hu : S8x128.ShapeCasts S1x8x128) (j : S1x8x128.Idx) :
    shapeCast S1x8x128 (addf (shapeCast S8x128 acc hd)
        (broadcastTo S8x128 (shapeCast S1x1 (multiReduction .add [0] S1 (shapeCast S512x1 (multiReduction .add [1] S512 V 0x00000000#32 h1 hφ hacc) hc1) 0x00000000#32 h2 hφ hacc) hc2) hb)) hu j
      = acc j + ∑ i : S512x512.Idx, V i := by
  obtain ⟨u, a, b, rfl⟩ : ∃ u a b, j = ix3 u a b := ⟨j 0, j 1, j 2, eq_ix3 j⟩
  refine (shapeCast_ab_1ab_apply _ hu u a b).trans ?_
  refine (addf_apply _ _ _).trans ?_
  refine congrArg₂ (· + ·) ?_ ?_
  · refine (shapeCast_1ab_ab_apply acc hd a b).trans ?_
    rw [Subsingleton.elim u 0]
  · refine (broadcastTo_11_ab_apply _ hb a b).trans ?_
    exact sum2_apply V h1 hc1 h2 hc2 hφ hacc _

theorem pay15_apply (V : FVec Ideal S512x512 .f32) (acc : Vec Ideal S1x8x128 .f32) (j : S1x8x128.Idx) :
    k0_pay15 (F := Ideal) V acc j = acc j + ∑ i : S512x512.Idx, V i := by
  unfold k0_pay15
  exact acc_add_apply V acc _ _ _ _ _ _ _ _ _ j

theorem pay1_apply (v98 : FVec Ideal S512x512 .f32) (v102 : FVec Ideal S1x1 .f32) (v105 v111 v118 : FVec Ideal S512x512 .f32)
    (acc : Vec Ideal S1x8x128 .f32) (j : S1x8x128.Idx) :
    k0_pay1 (F := Ideal) v98 v102 v105 v111 v118 acc j
      = acc j + ∑ i : S512x512.Idx, (v98 i * Ideal.div 1 (v102 (ix2 (0 : Fin 1) (0 : Fin 1)))) * (v105 i - (v111 i - v118 i)) := by
  unfold k0_pay1
  refine (acc_add_apply _ acc _ _ _ _ _ _ _ _ _ j).trans ?_
  refine congrArg (acc j + ·) (Finset.sum_congr rfl fun i _ => ?_)
  refine (mulf_apply _ _ _).trans ?_
  refine congrArg₂ (· * ·) ?_ rfl
  refine (mulf_apply _ _ _).trans ?_
  exact congrArg (v98 i * ·) (recip_apply v102 _ i)

end PayF

open PayF

/-! ## The statements -/

/-- The block the first step of an image stores into both accumulators is all zero. -/
theorem pay7_eq : (k0_pay7 (F := Ideal)) = fun _ => (0 : EReal) := by
  unfold k0_pay7
  funext j
  obtain ⟨u, a, b, rfl⟩ : ∃ u a b, j = ix3 u a b := ⟨j 0, j 1, j 2, eq_ix3 j⟩
  refine (shapeCast_ab_1ab_apply _ _ u a b).trans ?_
  exact Consts.ofBits_zero
theorem pay8_eq (x : Ideal .f32) : k0_pay8 (F := Ideal) x = fun _ => x := by
  unfold k0_pay8
  funext j
  obtain ⟨u, a, b, rfl⟩ : ∃ u a b, j = ix3 u a b := ⟨j 0, j 1, j 2, eq_ix3 j⟩
  exact shapeCast_ab_1ab_apply _ _ u a b

/-- A loaded prediction block as a tile. -/
theorem pay12_apply (x : Vec Ideal S1x1x512x512 .f32) (h w : Fin 512) : k0_pay12 (F := Ideal) x (ix2 h w) = x (ix4 0 0 h w) := by
  unfold k0_pay12
  exact shapeCast_11ab_ab_apply x _ h w
theorem pay13_apply (x : Vec Ideal S1x1x512x512 .f32) (h w : Fin 512) : k0_pay13 (F := Ideal) x (ix2 h w) = x (ix4 0 0 h w) := by
  unfold k0_pay13
  exact shapeCast_11ab_ab_apply x _ h w

/-- The edge accumulator's new block: at every entry the old entry plus the divergence of the two tiles masked by `msk`
    (`x1` is the block of the first prediction array, `x2` of the second). -/
theorem edge_step (msk : IVec S512x512 1) (x1 x2 : Vec Ideal S1x1x512x512 .f32) (acc : Vec Ideal S1x8x128 .f32) (j : S1x8x128.Idx) :
    k0_pay15 (F := Ideal) (k0_pay14 msk x1 x2) acc j
      = acc j + klK (sel msk (k0_pay12 (F := Ideal) x1)) (sel msk (k0_pay13 (F := Ideal) x2)) := by
  refine (pay15_apply _ acc j).trans ?_
  refine congrArg (acc j + ·) ?_
  unfold klK
  refine Finset.sum_congr rfl fun i _ => ?_
  rw [pay14_def]
  refine (mulf_apply _ _ _).trans ?_
  refine congrArg₂ (· * ·) ?_ ?_
  · refine (mulf_apply _ _ _).trans ?_
    refine congrArg₂ (· * ·) ?_ ?_
    · show Ideal.exp (shv _ i) = _
      rw [shv_apply, zselv_eq]
    · refine (recip_apply _ _ i).trans ?_
      rw [zv_apply, zselv_eq]
  · refine (subf_apply _ _ _).trans ?_
    rw [lsmv_apply, lsmv_apply, zselv_eq, zselv_eq]

/-- The body accumulator's new block likewise (`v36` the first array's tile, `v38` the second's). -/
theorem body_step (msk : IVec S512x512 1) (v36 v38 : FVec Ideal S512x512 .f32) (acc : Vec Ideal S1x8x128 .f32) (j : S1x8x128.Idx) :
    k0_pay1 (F := Ideal) (k0_pay17 msk v38) (k0_pay18 msk v38) (k0_pay19 msk v38) (k0_pay20 msk v36) (k0_pay21 msk v36) acc j
      = acc j + klK (sel msk v36) (sel msk v38) := by
  refine (pay1_apply _ _ _ _ _ acc j).trans ?_
  refine congrArg (acc j + ·) ?_
  unfold klK
  refine Finset.sum_congr rfl fun i _ => ?_
  rw [pay17_def, pay18_def, pay19_def, pay20_def, pay21_def]
  refine congrArg₂ (· * ·) (congrArg₂ (· * ·) ?_ ?_) ?_
  · show Ideal.exp (shv _ i) = _
    rw [shv_apply, zselv_eq]
  · rw [zv_apply, zselv_eq]
  · rw [lsmv_apply, shv_apply, lzv_apply, zselv_eq, zselv_eq]
    rfl

end Cert.Bpkd.K

end
-- ==== Proof.KPayM.lean ====
/-
  The kernel's integer payloads. The loaded label block, read as a 512 × 512 plane, is copied four times with a shift of
  one row or one column; the row or column that the shift leaves empty holds the border word −1. Comparing the plane and
  the four copies with the class word gives, at every pixel, the class indicator of the pixel and of its four
  neighbours, a neighbour beyond the border counting as of no class because −1 is none of the class words 1 … 13. The
  edge mask is the dilation xor the erosion of those five bits, the body mask is the pixel's bit and not the edge bit.
-/
import proofs.«401587_j24979529793865_3_alg».proof.Proof.Spec
import proofs.«401587_j24979529793865_3_alg».proof.Proof.Gen.KernelIdeal.Skeleton
import Idealize.ShloMosaic.Lib.Pipeline.Value
import Idealize.ShloMosaic.Lib.ValueLayout

noncomputable section

open scoped BigOperators

namespace Cert.Bpkd.K

open Idealize.ShloMosaic Idealize.ShloMosaic.ValueIdx Cert.KernelIdeal Cert.KernelIdeal.Gen

/-- The label plane a loaded label block holds. -/
def blkPlane (x0 : Vec Ideal S1x1x512x512 .i32) : Fin 512 → Fin 512 → BitVec 32 := fun h w => x0 (ix4 0 0 h w)

/-- The label block cast to a plane reads, at a pixel, the block at that pixel. -/
private theorem pay2_apply (x0 : Vec Ideal S1x1x512x512 .i32) (h w : Fin 512) :
    k0_pay2 (F := Ideal) x0 (ix2 h w) = x0 (ix4 0 0 h w) := by
  unfold k0_pay2
  refine shapeCast_apply _ _ _ _ ?_
  rw [Shape.rowMajor_val_four, Shape.rowMajor_val_two]
  show ((0 * 1 + 0) * 512 + h.val) * 512 + w.val = h.val * 512 + w.val
  omega

/-- The copy shifted down by one row: row 0 is the border word −1. -/
theorem pay3_apply (x0 : Vec Ideal S1x1x512x512 .i32) (h w : Fin 512) :
    k0_pay3 (F := Ideal) x0 (ix3 0 h w) = if hh : h.val = 0 then 4294967295#32 else x0 (ix4 0 0 ⟨h.val - 1, by omega⟩ w) := by
  unfold k0_pay3
  refine (shapeCast_ab_1ab_apply _ _ 0 h w).trans ?_
  by_cases hh : h.val = 0
  · rw [dif_pos hh]
    refine (concatenate_pair_apply_left (t := S512x512) (s₁ := S1x512) (s₂ := S511x512) 0 _ _ _ (ix2 h w) rfl
      (ix2 (⟨0, by omega⟩ : Fin 1) w) ?_).trans ?_
    · intro b
      match b with
      | ⟨0, _⟩ => exact hh.symm
      | ⟨1, _⟩ => rfl
    · rfl
  · rw [dif_neg hh]
    refine (concatenate_pair_apply_right (t := S512x512) (s₁ := S1x512) (s₂ := S511x512) 0 _ _ _ (ix2 h w) rfl rfl
      (ix2 (⟨h.val - 1, by omega⟩ : Fin 511) w) ?_ ?_).trans ?_
    · intro b hb
      match b, hb with
      | ⟨0, _⟩, hb => exact absurd rfl hb
      | ⟨1, _⟩, _ => rfl
    · show (h.val - 1) + 1 = h.val
      omega
    · refine (slice2_axis0_apply 0 _ _ _ w ⟨h.val - 1, by omega⟩ (by simp)).trans ?_
      exact pay2_apply x0 _ w

/-- Shifted up: row 511 is the border. -/
theorem pay4_apply (x0 : Vec Ideal S1x1x512x512 .i32) (h w : Fin 512) :
    k0_pay4 (F := Ideal) x0 (ix3 0 h w) = if hh : h.val = 511 then 4294967295#32 else x0 (ix4 0 0 ⟨h.val + 1, by omega⟩ w) := by
  unfold k0_pay4
  refine (shapeCast_ab_1ab_apply _ _ 0 h w).trans ?_
  by_cases hh : h.val = 511
  · rw [dif_pos hh]
    refine (concatenate_pair_apply_right (t := S512x512) (s₁ := S511x512) (s₂ := S1x512) 0 _ _ _ (ix2 h w) rfl rfl
      (ix2 (⟨0, by omega⟩ : Fin 1) w) ?_ ?_).trans ?_
    · intro b hb
      match b, hb with
      | ⟨0, _⟩, hb => exact absurd rfl hb
      | ⟨1, _⟩, _ => rfl
    · show 0 + 511 = h.val
      omega
    · rfl
  · rw [dif_neg hh]
    have hlt := h.isLt
    refine (concatenate_pair_apply_left (t := S512x512) (s₁ := S511x512) (s₂ := S1x512) 0 _ _ _ (ix2 h w) rfl
      (ix2 (⟨h.val, by omega⟩ : Fin 511) w) ?_).trans ?_
    · intro b
      match b with
      | ⟨0, _⟩ => rfl
      | ⟨1, _⟩ => rfl
    · refine (slice2_axis0_apply 1 _ _ _ w ⟨h.val + 1, by omega⟩ (by show h.val + 1 = 1 + h.val; omega)).trans ?_
      exact pay2_apply x0 _ w

/-- Shifted right by one column: column 0 is the border. -/
theorem pay5_apply (x0 : Vec Ideal S1x1x512x512 .i32) (h w : Fin 512) :
    k0_pay5 (F := Ideal) x0 (ix3 0 h w) = if hw : w.val = 0 then 4294967295#32 else x0 (ix4 0 0 h ⟨w.val - 1, by omega⟩) := by
  unfold k0_pay5
  refine (shapeCast_ab_1ab_apply _ _ 0 h w).trans ?_
  by_cases hw : w.val = 0
  · rw [dif_pos hw]
    refine (concatenate_pair_apply_left (t := S512x512) (s₁ := S512x1) (s₂ := S512x511) 1 _ _ _ (ix2 h w) rfl
      (ix2 h (⟨0, by omega⟩ : Fin 1)) ?_).trans ?_
    · intro b
      match b with
      | ⟨0, _⟩ => rfl
      | ⟨1, _⟩ => exact hw.symm
    · rfl
  · rw [dif_neg hw]
    refine (concatenate_pair_apply_right (t := S512x512) (s₁ := S512x1) (s₂ := S512x511) 1 _ _ _ (ix2 h w) rfl rfl
      (ix2 h (⟨w.val - 1, by omega⟩ : Fin 511)) ?_ ?_).trans ?_
    · intro b hb
      match b, hb with
      | ⟨0, _⟩, _ => rfl
      | ⟨1, _⟩, hb => exact absurd rfl hb
    · show (w.val - 1) + 1 = w.val
      omega
    · refine (slice2_axis1_apply 0 _ _ h _ ⟨w.val - 1, by omega⟩ (by simp)).trans ?_
      exact pay2_apply x0 h _

/-- Shifted left: column 511 is the border. -/
theorem pay6_apply (x0 : Vec Ideal S1x1x512x512 .i32) (h w : Fin 512) :
    k0_pay6 (F := Ideal) x0 (ix3 0 h w) = if hw : w.val = 511 then 4294967295#32 else x0 (ix4 0 0 h ⟨w.val + 1, by omega⟩) := by
  unfold k0_pay6
  refine (shapeCast_ab_1ab_apply _ _ 0 h w).trans ?_
  by_cases hw : w.val = 511
  · rw [dif_pos hw]
    refine (concatenate_pair_apply_right (t := S512x512) (s₁ := S512x511) (s₂ := S512x1) 1 _ _ _ (ix2 h w) rfl rfl
      (ix2 h (⟨0, by omega⟩ : Fin 1)) ?_ ?_).trans ?_
    · intro b hb
      match b, hb with
      | ⟨0, _⟩, _ => rfl
      | ⟨1, _⟩, hb => exact absurd rfl hb
    · show 0 + 511 = w.val
      omega
    · rfl
  · rw [dif_neg hw]
    have hlt := w.isLt
    refine (concatenate_pair_apply_left (t := S512x512) (s₁ := S512x511) (s₂ := S512x1) 1 _ _ _ (ix2 h w) rfl
      (ix2 h (⟨w.val, by omega⟩ : Fin 511)) ?_).trans ?_
    · intro b
      match b with
      | ⟨0, _⟩ => rfl
      | ⟨1, _⟩ => rfl
    · refine (slice2_axis1_apply 1 _ _ h _ ⟨w.val + 1, by omega⟩ (by show w.val + 1 = 1 + w.val; omega)).trans ?_
      exact pay2_apply x0 h _

/-! ## The class word and the border -/

/-- The class word of grid step `n`: the step's number plus one. -/
private theorem clsWord_eq (n : ℕ) : Scalar.addi (BitVec.ofNat 32 n) 1#32 = BitVec.ofNat 32 (n + 1) := by
  show BitVec.ofNat 32 n + BitVec.ofNat 32 1 = BitVec.ofNat 32 (n + 1)
  exact (BitVec.ofNat_add n 1).symm

/-- The border word −1 is none of the class words 1 … 13. -/
private theorem cmp_border (n : ℕ) (hn : n < 13) : IntOp.cmpi .eq (4294967295#32) (BitVec.ofNat 32 (n + 1)) = 0#1 := by
  interval_cases n <;> decide

/-- Inside the plane the indicator compares the pixel's word with the class word. -/
private theorem clsAt_in (G : Fin 512 → Fin 512 → BitVec 32) (cw : BitVec 32) (h w : Fin 512) :
    clsAt G cw (h.val + 1) (w.val + 1) = IntOp.cmpi .eq (G h w) cw := by
  have hh := h.isLt
  have hw := w.isLt
  unfold clsAt
  rw [dif_pos (show (1 ≤ h.val + 1 ∧ h.val + 1 ≤ 512) ∧ (1 ≤ w.val + 1 ∧ w.val + 1 ≤ 512) by omega)]
  simp only [Nat.add_sub_cancel, Fin.eta]

/-- The same with the shifted coordinates named. -/
private theorem clsAt_of (G : Fin 512 → Fin 512 → BitVec 32) (cw : BitVec 32) (a b : ℕ) (h w : Fin 512)
    (ha : a = h.val + 1) (hb : b = w.val + 1) : clsAt G cw a b = IntOp.cmpi .eq (G h w) cw := by
  subst ha hb
  exact clsAt_in G cw h w

private theorem clsAt_row0 (G : Fin 512 → Fin 512 → BitVec 32) (cw : BitVec 32) (w : ℕ) : clsAt G cw 0 w = 0#1 := by
  unfold clsAt
  split
  · next hh => omega
  · rfl
private theorem clsAt_row513 (G : Fin 512 → Fin 512 → BitVec 32) (cw : BitVec 32) (w : ℕ) : clsAt G cw 513 w = 0#1 := by
  unfold clsAt
  split
  · next hh => omega
  · rfl
private theorem clsAt_col0 (G : Fin 512 → Fin 512 → BitVec 32) (cw : BitVec 32) (h : ℕ) : clsAt G cw h 0 = 0#1 := by
  unfold clsAt
  split
  · next hh => omega
  · rfl
private theorem clsAt_col513 (G : Fin 512 → Fin 512 → BitVec 32) (cw : BitVec 32) (h : ℕ) : clsAt G cw h 513 = 0#1 := by
  unfold clsAt
  split
  · next hh => omega
  · rfl

/-! ## The five indicator bits at a pixel -/

/-- The pixel's own bit. -/
private theorem bit0 (i : grid0.Coords) (x0 : Vec Ideal S1x1x512x512 .i32) (h w : Fin 512) :
    k0_pay9 (F := Ideal) i x0 (ix2 h w)
      = clsAt (blkPlane x0) (BitVec.ofNat 32 ((i 1).val + 1)) (h.val + 1) (w.val + 1) := by
  rw [clsAt_in, ← clsWord_eq]
  exact congrArg (fun z => IntOp.cmpi .eq z (Scalar.addi (BitVec.ofNat 32 (i 1).val) 1#32)) (pay2_apply x0 h w)

/-- The row before. -/
private theorem bit3 (x0 : Vec Ideal S1x1x512x512 .i32) (n : ℕ) (hn : n < 13) (h w : Fin 512) :
    IntOp.cmpi .eq (shapeCast S512x512 (k0_pay3 (F := Ideal) x0) shapeCasts_S1x512x512_S512x512 (ix2 h w)) (BitVec.ofNat 32 (n + 1))
      = clsAt (blkPlane x0) (BitVec.ofNat 32 (n + 1)) h.val (w.val + 1) := by
  rw [shapeCast_1ab_ab_apply (k0_pay3 (F := Ideal) x0) shapeCasts_S1x512x512_S512x512 h w, pay3_apply]
  by_cases hh : h.val = 0
  · rw [dif_pos hh, hh, clsAt_row0, cmp_border n hn]
  · rw [dif_neg hh]
    exact (clsAt_of (blkPlane x0) (BitVec.ofNat 32 (n + 1)) h.val (w.val + 1) ⟨h.val - 1, by omega⟩ w
      (by show h.val = h.val - 1 + 1; omega) rfl).symm

/-- The row after. -/
private theorem bit4 (x0 : Vec Ideal S1x1x512x512 .i32) (n : ℕ) (hn : n < 13) (h w : Fin 512) :
    IntOp.cmpi .eq (shapeCast S512x512 (k0_pay4 (F := Ideal) x0) shapeCasts_S1x512x512_S512x512 (ix2 h w)) (BitVec.ofNat 32 (n + 1))
      = clsAt (blkPlane x0) (BitVec.ofNat 32 (n + 1)) (h.val + 2) (w.val + 1) := by
  rw [shapeCast_1ab_ab_apply (k0_pay4 (F := Ideal) x0) shapeCasts_S1x512x512_S512x512 h w, pay4_apply]
  by_cases hh : h.val = 511
  · rw [dif_pos hh, hh, clsAt_row513, cmp_border n hn]
  · rw [dif_neg hh]
    exact (clsAt_of (blkPlane x0) (BitVec.ofNat 32 (n + 1)) (h.val + 2) (w.val + 1) ⟨h.val + 1, by omega⟩ w rfl rfl).symm

/-- The column before. -/
private theorem bit5 (x0 : Vec Ideal S1x1x512x512 .i32) (n : ℕ) (hn : n < 13) (h w : Fin 512) :
    IntOp.cmpi .eq (shapeCast S512x512 (k0_pay5 (F := Ideal) x0) shapeCasts_S1x512x512_S512x512 (ix2 h w)) (BitVec.ofNat 32 (n + 1))
      = clsAt (blkPlane x0) (BitVec.ofNat 32 (n + 1)) (h.val + 1) w.val := by
  rw [shapeCast_1ab_ab_apply (k0_pay5 (F := Ideal) x0) shapeCasts_S1x512x512_S512x512 h w, pay5_apply]
  by_cases hw : w.val = 0
  · rw [dif_pos hw, hw, clsAt_col0, cmp_border n hn]
  · rw [dif_neg hw]
    exact (clsAt_of (blkPlane x0) (BitVec.ofNat 32 (n + 1)) (h.val + 1) w.val h ⟨w.val - 1, by omega⟩ rfl
      (by show w.val = w.val - 1 + 1; omega)).symm

/-- The column after. -/
private theorem bit6 (x0 : Vec Ideal S1x1x512x512 .i32) (n : ℕ) (hn : n < 13) (h w : Fin 512) :
    IntOp.cmpi .eq (shapeCast S512x512 (k0_pay6 (F := Ideal) x0) shapeCasts_S1x512x512_S512x512 (ix2 h w)) (BitVec.ofNat 32 (n + 1))
      = clsAt (blkPlane x0) (BitVec.ofNat 32 (n + 1)) (h.val + 1) (w.val + 2) := by
  rw [shapeCast_1ab_ab_apply (k0_pay6 (F := Ideal) x0) shapeCasts_S1x512x512_S512x512 h w, pay6_apply]
  by_cases hw : w.val = 511
  · rw [dif_pos hw, hw, clsAt_col513, cmp_border n hn]
  · rw [dif_neg hw]
    exact (clsAt_of (blkPlane x0) (BitVec.ofNat 32 (n + 1)) (h.val + 1) (w.val + 2) h ⟨w.val + 1, by omega⟩ rfl rfl).symm

/-! ## The two masks -/

/-- The edge payload at an index: dilation xor erosion of the five compared words. -/
private theorem pay10_point (i : grid0.Coords) (x0 : Vec Ideal S1x1x512x512 .i32) (v8 v12 v16 v20 : Vec Ideal S1x512x512 .i32) (j : S512x512.Idx) :
    k0_pay10 (F := Ideal) i x0 v8 v12 v16 v20 j
      = edge5 (k0_pay9 (F := Ideal) i x0 j)
          (IntOp.cmpi .eq (shapeCast S512x512 v8 shapeCasts_S1x512x512_S512x512 j) (Scalar.addi (BitVec.ofNat 32 (i 1).val) 1#32))
          (IntOp.cmpi .eq (shapeCast S512x512 v12 shapeCasts_S1x512x512_S512x512 j) (Scalar.addi (BitVec.ofNat 32 (i 1).val) 1#32))
          (IntOp.cmpi .eq (shapeCast S512x512 v16 shapeCasts_S1x512x512_S512x512 j) (Scalar.addi (BitVec.ofNat 32 (i 1).val) 1#32))
          (IntOp.cmpi .eq (shapeCast S512x512 v20 shapeCasts_S1x512x512_S512x512 j) (Scalar.addi (BitVec.ofNat 32 (i 1).val) 1#32)) := rfl

/-- The body payload at an index: of the class and not an edge pixel. -/
private theorem pay11_point (i : grid0.Coords) (x0 : Vec Ideal S1x1x512x512 .i32) (v8 v12 v16 v20 : Vec Ideal S1x512x512 .i32) (j : S512x512.Idx) :
    k0_pay11 (F := Ideal) i x0 v8 v12 v16 v20 j
      = IntOp.andi (IntOp.xori (k0_pay10 (F := Ideal) i x0 v8 v12 v16 v20 j) 1#1) (k0_pay9 (F := Ideal) i x0 j) := rfl

/-- The edge mask of grid step `i 1` (class `i 1 + 1`), from the label block and its four shifted copies. -/
theorem edge_mask (i : grid0.Coords) (hi : (i 1).val < 13) (x0 : Vec Ideal S1x1x512x512 .i32) (h w : Fin 512) :
    k0_pay10 (F := Ideal) i x0 (k0_pay3 (F := Ideal) x0) (k0_pay4 (F := Ideal) x0) (k0_pay5 (F := Ideal) x0) (k0_pay6 (F := Ideal) x0) (ix2 h w)
      = edgeOf (clsAt (blkPlane x0) (BitVec.ofNat 32 ((i 1).val + 1))) h w := by
  rw [pay10_point, clsWord_eq, bit0, bit3 x0 _ hi, bit4 x0 _ hi, bit5 x0 _ hi, bit6 x0 _ hi]
  rfl
/-- The body mask likewise. -/
theorem body_mask (i : grid0.Coords) (hi : (i 1).val < 13) (x0 : Vec Ideal S1x1x512x512 .i32) (h w : Fin 512) :
    k0_pay11 (F := Ideal) i x0 (k0_pay3 (F := Ideal) x0) (k0_pay4 (F := Ideal) x0) (k0_pay5 (F := Ideal) x0) (k0_pay6 (F := Ideal) x0) (ix2 h w)
      = bodyOf (clsAt (blkPlane x0) (BitVec.ofNat 32 ((i 1).val + 1))) h w := by
  rw [pay11_point, edge_mask i hi x0 h w, bit0]
  rfl

end Cert.Bpkd.K

end
-- ==== Proof.KPieces.lean ====
/- What each case of the kernel body leaves in the two accumulator blocks and in the carried scratch, as terms of the
   point's input blocks and of what the point before left. -/
import proofs.«401587_j24979529793865_3_alg».proof.Proof.Gen.KernelIdeal.Frame
import Idealize.ShloMosaic.Lib.Pipeline.Value
import Idealize.ShloMosaic.Lib.Tactic

set_option maxRecDepth 16384

noncomputable section

namespace Cert.Bpkd.K

open Idealize.ShloMosaic Idealize.ShloMosaic.TcCoe Idealize.SL.Sem Cert.KernelIdeal Cert.KernelIdeal.Gen
open Idealize.ShloMosaic.Tactic

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The four planes of the scratch, as rectangles of it. -/
abbrev rp0 : Rect S4x512x512 := Rect.unit ![0, 0, 0] S1x512x512.size inb_S4x512x512_S1x512x512_0_0_0
abbrev rp1 : Rect S4x512x512 := Rect.unit ![1, 0, 0] S1x512x512.size inb_S4x512x512_S1x512x512_1_0_0
abbrev rp2 : Rect S4x512x512 := Rect.unit ![2, 0, 0] S1x512x512.size inb_S4x512x512_S1x512x512_2_0_0
abbrev rp3 : Rect S4x512x512 := Rect.unit ![3, 0, 0] S1x512x512.size inb_S4x512x512_S1x512x512_3_0_0

/-- The stores of an image's first step into the scratch, last first: plane `p` takes the `p`-th shifted copy of the label block. -/
abbrev L0 (x0 : Vec F S1x1x512x512 .i32) : List (View.Piece (Elt F) S4x512x512 .i32) := [⟨rp0, k0_pay3 x0⟩]
abbrev L1 (x0 : Vec F S1x1x512x512 .i32) : List (View.Piece (Elt F) S4x512x512 .i32) := ⟨rp1, k0_pay4 x0⟩ :: L0 x0
abbrev L2 (x0 : Vec F S1x1x512x512 .i32) : List (View.Piece (Elt F) S4x512x512 .i32) := ⟨rp2, k0_pay5 x0⟩ :: L1 x0
abbrev L3 (x0 : Vec F S1x1x512x512 .i32) : List (View.Piece (Elt F) S4x512x512 .i32) := ⟨rp3, k0_pay6 x0⟩ :: L2 x0

/-- The scratch after an image's first step. -/
def scr (x0 : Vec F S1x1x512x512 .i32) : Vec F S4x512x512 .i32 := View.canon (L3 x0)

/-- Off the last store's rectangle — no index of it is the given one — the stores before it are read. -/
theorem canon_cons_of_ne {Val : EltTy → Type} [∀ e, Nonempty (Val e)] {s : Shape} {e : EltTy} (p : View.Piece Val s e)
    (L : List (View.Piece Val s e)) {y : s.Idx} (h : ∀ x, p.1.emb x ≠ y) : View.canon (p :: L) y = View.canon L y := by
  rw [View.canon_cons]; unfold Rect.overlay; rw [preimage?_eq_none h]

/-- Two planes of different numbers share no index. -/
theorem ne_plane (p q : Fin 3 → Nat) (hp hq) (hpq : p 0 ≠ q 0) (x x' : S1x512x512.Idx) :
    (Rect.unit (s := S4x512x512) q S1x512x512.size hq).emb x' ≠ (Rect.unit (s := S4x512x512) p S1x512x512.size hp).emb x := by
  intro e
  have e0 := congrArg (fun i : S4x512x512.Idx => (i 0 : ℕ)) e
  simp only [Rect.emb_apply, Rect.off_unit, Rect.stride_unit] at e0
  have hx : (x 0 : ℕ) < 1 := (x 0).isLt
  have hx' : (x' 0 : ℕ) < 1 := (x' 0).isLt
  omega

/-- Each plane of that scratch, read back, is its shifted copy. -/
theorem ld_scr3 (x0 : Vec F S1x1x512x512 .i32) : View.ld (scr x0) rp3 = k0_pay6 x0 := by
  funext x
  exact View.canon_cons_emb rp3 _ _ x
theorem ld_scr2 (x0 : Vec F S1x1x512x512 .i32) : View.ld (scr x0) rp2 = k0_pay5 x0 := by
  funext x
  show View.canon ((⟨rp3, k0_pay6 x0⟩ : View.Piece (Elt F) S4x512x512 .i32) :: L2 x0) (rp2.emb x) = _
  rw [canon_cons_of_ne (⟨rp3, k0_pay6 x0⟩ : View.Piece (Elt F) S4x512x512 .i32) (L2 x0) (ne_plane ![2, 0, 0] ![3, 0, 0] inb_S4x512x512_S1x512x512_2_0_0 inb_S4x512x512_S1x512x512_3_0_0 (by decide) x)]
  exact View.canon_cons_emb rp2 _ _ x
theorem ld_scr1 (x0 : Vec F S1x1x512x512 .i32) : View.ld (scr x0) rp1 = k0_pay4 x0 := by
  funext x
  show View.canon ((⟨rp3, k0_pay6 x0⟩ : View.Piece (Elt F) S4x512x512 .i32) :: L2 x0) (rp1.emb x) = _
  rw [canon_cons_of_ne (⟨rp3, k0_pay6 x0⟩ : View.Piece (Elt F) S4x512x512 .i32) (L2 x0) (ne_plane ![1, 0, 0] ![3, 0, 0] inb_S4x512x512_S1x512x512_1_0_0 inb_S4x512x512_S1x512x512_3_0_0 (by decide) x),
    canon_cons_of_ne (⟨rp2, k0_pay5 x0⟩ : View.Piece (Elt F) S4x512x512 .i32) (L1 x0) (ne_plane ![1, 0, 0] ![2, 0, 0] inb_S4x512x512_S1x512x512_1_0_0 inb_S4x512x512_S1x512x512_2_0_0 (by decide) x)]
  exact View.canon_cons_emb rp1 _ _ x
theorem ld_scr0 (x0 : Vec F S1x1x512x512 .i32) : View.ld (scr x0) rp0 = k0_pay3 x0 := by
  funext x
  show View.canon ((⟨rp3, k0_pay6 x0⟩ : View.Piece (Elt F) S4x512x512 .i32) :: L2 x0) (rp0.emb x) = _
  rw [canon_cons_of_ne (⟨rp3, k0_pay6 x0⟩ : View.Piece (Elt F) S4x512x512 .i32) (L2 x0) (ne_plane ![0, 0, 0] ![3, 0, 0] inb_S4x512x512_S1x512x512_0_0_0 inb_S4x512x512_S1x512x512_3_0_0 (by decide) x),
    canon_cons_of_ne (⟨rp2, k0_pay5 x0⟩ : View.Piece (Elt F) S4x512x512 .i32) (L1 x0) (ne_plane ![0, 0, 0] ![2, 0, 0] inb_S4x512x512_S1x512x512_0_0_0 inb_S4x512x512_S1x512x512_2_0_0 (by decide) x),
    canon_cons_of_ne (⟨rp1, k0_pay4 x0⟩ : View.Piece (Elt F) S4x512x512 .i32) (L0 x0) (ne_plane ![0, 0, 0] ![1, 0, 0] inb_S4x512x512_S1x512x512_0_0_0 inb_S4x512x512_S1x512x512_1_0_0 (by decide) x)]
  exact View.canon_cons_emb rp0 _ _ x

/-- The edge mask of a step, from the label block and the scratch's four planes. -/
def mskE (i : grid0.Coords) (x0 : Vec F S1x1x512x512 .i32) (xs : Vec F S4x512x512 .i32) : IVec S512x512 1 :=
  k0_pay10 i x0 (View.ld xs rp0) (View.ld xs rp1) (View.ld xs rp2) (View.ld xs rp3)
/-- The body mask likewise. -/
def mskB (i : grid0.Coords) (x0 : Vec F S1x1x512x512 .i32) (xs : Vec F S4x512x512 .i32) : IVec S512x512 1 :=
  k0_pay11 i x0 (View.ld xs rp0) (View.ld xs rp1) (View.ld xs rp2) (View.ld xs rp3)

/-- What a step leaves in the edge accumulator holding `acc`. -/
def stepE (i : grid0.Coords) (x0 : Vec F S1x1x512x512 .i32) (xs : Vec F S4x512x512 .i32)
    (x1 x2 : Vec F S1x1x512x512 .f32) (acc : Vec F S1x8x128 .f32) : Vec F S1x8x128 .f32 :=
  k0_pay15 (k0_pay14 (mskE i x0 xs) x1 x2) acc
/-- What it leaves in the body accumulator. -/
def stepB (i : grid0.Coords) (x0 : Vec F S1x1x512x512 .i32) (xs : Vec F S4x512x512 .i32)
    (x1 x2 : Vec F S1x1x512x512 .f32) (acc : Vec F S1x8x128 .f32) : Vec F S1x8x128 .f32 :=
  k0_pay1 (k0_pay17 (mskB i x0 xs) (k0_pay13 x2)) (k0_pay18 (mskB i x0 xs) (k0_pay13 x2)) (k0_pay19 (mskB i x0 xs) (k0_pay13 x2))
    (k0_pay20 (mskB i x0 xs) (k0_pay12 x1)) (k0_pay21 (mskB i x0 xs) (k0_pay12 x1)) acc

/-- A later step of an image adds onto the edge accumulator, reading the carried scratch. -/
theorem outB3 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S4x512x512 .i32) (harg7 : arg7.IsWhole) (hc0 : ¬cond0_0 i)
    (x0 : Vec F S1x1x512x512 .i32) (x1 : Vec F S1x1x512x512 .f32) (x2 : Vec F S1x1x512x512 .f32) (xo3 : Vec F S1x8x128 .f32) (xo4 : Vec F S1x8x128 .f32) (xs0 : Vec F S4x512x512 .i32) :
    out0_B_3 c i arg2 harg2 arg3 harg3 arg4 harg4 arg5 harg5 arg6 harg6 arg7 harg7 hc0 x0 x1 x2 xo3 xo4 xs0 = stepE i x0 xs0 x1 x2 xo3 := by
  unfold out0_B_3
  rw [View.read_writes_eq_canon _ _ _ (cover0_B_3 c i arg2 harg2 arg3 harg3 arg4 harg4 arg5 harg5 arg6 harg6 arg7 harg7 hc0 x0 x1 x2 xo3 xo4 xs0)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S1x8x128) hz3, View.ld_unit_zero (S := S1x1x512x512) hz4]
  rfl

/-- and onto the body accumulator. -/
theorem outB4 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S4x512x512 .i32) (harg7 : arg7.IsWhole) (hc0 : ¬cond0_0 i)
    (x0 : Vec F S1x1x512x512 .i32) (x1 : Vec F S1x1x512x512 .f32) (x2 : Vec F S1x1x512x512 .f32) (xo3 : Vec F S1x8x128 .f32) (xo4 : Vec F S1x8x128 .f32) (xs0 : Vec F S4x512x512 .i32) :
    out0_B_4 c i arg2 harg2 arg3 harg3 arg4 harg4 arg5 harg5 arg6 harg6 arg7 harg7 hc0 x0 x1 x2 xo3 xo4 xs0 = stepB i x0 xs0 x1 x2 xo4 := by
  unfold out0_B_4
  rw [View.read_writes_eq_canon _ _ _ (cover0_B_4 c i arg2 harg2 arg3 harg3 arg4 harg4 arg5 harg5 arg6 harg6 arg7 harg7 hc0 x0 x1 x2 xo3 xo4 xs0)]
  unfold kernelRun0_B
  dsimp only
  sl_unfold_words
  rw [View.canon_unit_zero hz3]
  simp only [View.readAt_eq_ld, harg2.read_unread, harg3.read_unread, harg4.read_unread, harg6.read_unread, harg7.read_unread, View.ld_unit_zero (S := S1x8x128) hz3, View.ld_unit_zero (S := S1x1x512x512) hz4]
  rfl

/-- An image's first step stores the four shifted copies into the scratch, -/
theorem soutA (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S4x512x512 .i32) (harg7 : arg7.IsWhole) (hc0 : cond0_0 i)
    (x0 : Vec F S1x1x512x512 .i32) (x1 : Vec F S1x1x512x512 .f32) (x2 : Vec F S1x1x512x512 .f32) :
    sout0_A_0 c i arg2 harg2 arg3 harg3 arg4 harg4 arg5 harg5 arg6 harg6 arg7 harg7 hc0 x0 x1 x2 = scr x0 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  simp only [View.readAt_eq_ld, harg2.read_unread, View.ld_unit_zero (S := S1x1x512x512) hz4]
  rfl

/-- zeroes the edge accumulator and then steps from the scratch it has just written, -/
theorem outA3 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S4x512x512 .i32) (harg7 : arg7.IsWhole) (hc0 : cond0_0 i)
    (x0 : Vec F S1x1x512x512 .i32) (x1 : Vec F S1x1x512x512 .f32) (x2 : Vec F S1x1x512x512 .f32) :
    out0_A_3 c i arg2 harg2 arg3 harg3 arg4 harg4 arg5 harg5 arg6 harg6 arg7 harg7 hc0 x0 x1 x2 = stepE i x0 (scr x0) x1 x2 (k0_pay7 (F := F)) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, View.ld_unit_zero (S := S1x1x512x512) hz4, View.readCov_eq_canon']
  rfl

/-- and likewise the body accumulator. -/
theorem outA4 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S4x512x512 .i32) (harg7 : arg7.IsWhole) (hc0 : cond0_0 i)
    (x0 : Vec F S1x1x512x512 .i32) (x1 : Vec F S1x1x512x512 .f32) (x2 : Vec F S1x1x512x512 .f32) :
    out0_A_4 c i arg2 harg2 arg3 harg3 arg4 harg4 arg5 harg5 arg6 harg6 arg7 harg7 hc0 x0 x1 x2 = stepB i x0 (scr x0) x1 x2 (k0_pay8 (F := F) (Scalar.ofBits .f32 0x00000000#32)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, View.ld_unit_zero (S := S1x1x512x512) hz4, View.readCov_eq_canon']
  rfl

end Cert.Bpkd.K

end
-- ==== Proof.KInvariant.lean ====
/- The accumulation over the grid: after the step `n` of the 52 the edge accumulator block holds, at every entry, the sum
   of the edge divergences of the steps of image `n / 13` so far, the body accumulator the same for the body
   divergences, and the scratch the four shifted copies of that image's label block. -/
import proofs.«401587_j24979529793865_3_alg».proof.Proof.Spec
import proofs.«401587_j24979529793865_3_alg».proof.Proof.Consts
import proofs.«401587_j24979529793865_3_alg».proof.Proof.KPayF
import proofs.«401587_j24979529793865_3_alg».proof.Proof.KPayM
import proofs.«401587_j24979529793865_3_alg».proof.Proof.KPieces
import proofs.«401587_j24979529793865_3_alg».proof.Proof.Gen.KernelIdeal.Frame
import Idealize.ShloMosaic.Lib.Pipeline.Value
import Idealize.ShloMosaic.Lib.ValueLayout

set_option maxRecDepth 16384

noncomputable section

open scoped BigOperators

namespace Cert.Bpkd.K

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-- The three argument arrays: the two prediction arrays and the labels. -/
abbrev aS (c : Dev nD) : FVec Ideal SPred .f32 := m ((c.tc : Thread nD τ).loc main_arg0)
abbrev aT (c : Dev nD) : FVec Ideal SPred .f32 := m ((c.tc : Thread nD τ).loc main_arg1)
abbrev aG (c : Dev nD) : IVec SLab 32 := m ((c.tc : Thread nD τ).loc main_arg2)

/-- The three input blocks of a grid point. -/
abbrev lblk (c : Dev nD) (t : Fin cfg0.N) : Vec Ideal S1x1x512x512 .i32 := iblk m c 0 t
abbrev sblk (c : Dev nD) (t : Fin cfg0.N) : Vec Ideal S1x1x512x512 .f32 := iblk m c 1 t
abbrev tblk (c : Dev nD) (t : Fin cfg0.N) : Vec Ideal S1x1x512x512 .f32 := iblk m c 2 t

/-- Point `t` is step `t % 13` of image `t / 13`; the label window and the two accumulator windows sit at the image's
    block, the prediction windows at the image's block of class `t % 13 + 1`. -/
theorem gfacts : ∀ t : Fin cfg0.N,
    (grid0.coords t 1).val = t.val % 13
    ∧ win0_0.index t (0 : Fin 4) = t.val / 13 ∧ win0_0.index t (1 : Fin 4) = 0 ∧ win0_0.index t (2 : Fin 4) = 0 ∧ win0_0.index t (3 : Fin 4) = 0
    ∧ win0_1.index t (0 : Fin 4) = t.val / 13 ∧ win0_1.index t (1 : Fin 4) = t.val % 13 + 1 ∧ win0_1.index t (2 : Fin 4) = 0 ∧ win0_1.index t (3 : Fin 4) = 0
    ∧ win0_2.index t (0 : Fin 4) = t.val / 13 ∧ win0_2.index t (1 : Fin 4) = t.val % 13 + 1 ∧ win0_2.index t (2 : Fin 4) = 0 ∧ win0_2.index t (3 : Fin 4) = 0 :=
  (by decide +kernel : ∀ t : Fin grid0.N, _)

theorem lt52 (t : Fin cfg0.N) : t.val < 52 := lt_of_lt_of_eq t.isLt (show cfg0.N = 52 from N_0)

/-- The label block of a point is the image's label plane. -/
theorem lblk_apply (c : Dev nD) (t : Fin cfg0.N) (a b : Fin 1) (h w : Fin 512) (bi : Fin 4) (hbi : bi.val = t.val / 13) :
    lblk m c t (ix4 a b h w) = aG m c (ix4 bi 0 h w) := by
  obtain ⟨-, e0, e1, e2, e3, -⟩ := gfacts t
  have ha : a.val = 0 := by have := a.isLt; omega
  have hb : b.val = 0 := by have := b.isLt; omega
  unfold lblk iblk
  rw [View.read_apply]
  show V m c main_arg2 _ = m (c.tc.loc main_arg2) _
  unfold V
  congr 1
  funext d
  apply Fin.ext
  match d with
  | ⟨0, _⟩ => show win0_0.index t (0 : Fin 4) * 1 + 1 * a.val = bi.val; rw [e0, hbi, ha]; omega
  | ⟨1, _⟩ => show win0_0.index t (1 : Fin 4) * 1 + 1 * b.val = 0; rw [e1, hb]
  | ⟨2, _⟩ => show win0_0.index t (2 : Fin 4) * 512 + 1 * h.val = h.val; rw [e2]; omega
  | ⟨3, _⟩ => show win0_0.index t (3 : Fin 4) * 512 + 1 * w.val = w.val; rw [e3]; omega

/-- The first prediction block of a point is the image's tile of class `t % 13 + 1` of the first prediction array. -/
theorem sblk_apply (c : Dev nD) (t : Fin cfg0.N) (h w : Fin 512) (bi : Fin 4) (k : Fin 14) (hbi : bi.val = t.val / 13) (hk : k.val = t.val % 13 + 1) :
    sblk m c t (ix4 0 0 h w) = aS m c (ix4 bi k h w) := by
  obtain ⟨-, -, -, -, -, e0, e1, e2, e3, -⟩ := gfacts t
  unfold sblk iblk
  rw [View.read_apply]
  show V m c main_arg0 _ = m (c.tc.loc main_arg0) _
  unfold V
  congr 1
  funext d
  apply Fin.ext
  match d with
  | ⟨0, _⟩ => show win0_1.index t (0 : Fin 4) * 1 + 1 * 0 = bi.val; rw [e0, hbi]; omega
  | ⟨1, _⟩ => show win0_1.index t (1 : Fin 4) * 1 + 1 * 0 = k.val; rw [e1, hk]; omega
  | ⟨2, _⟩ => show win0_1.index t (2 : Fin 4) * 512 + 1 * h.val = h.val; rw [e2]; omega
  | ⟨3, _⟩ => show win0_1.index t (3 : Fin 4) * 512 + 1 * w.val = w.val; rw [e3]; omega

/-- The second likewise. -/
theorem tblk_apply (c : Dev nD) (t : Fin cfg0.N) (h w : Fin 512) (bi : Fin 4) (k : Fin 14) (hbi : bi.val = t.val / 13) (hk : k.val = t.val % 13 + 1) :
    tblk m c t (ix4 0 0 h w) = aT m c (ix4 bi k h w) := by
  obtain ⟨-, -, -, -, -, -, -, -, -, e0, e1, e2, e3⟩ := gfacts t
  unfold tblk iblk
  rw [View.read_apply]
  show V m c main_arg1 _ = m (c.tc.loc main_arg1) _
  unfold V
  congr 1
  funext d
  apply Fin.ext
  match d with
  | ⟨0, _⟩ => show win0_2.index t (0 : Fin 4) * 1 + 1 * 0 = bi.val; rw [e0, hbi]; omega
  | ⟨1, _⟩ => show win0_2.index t (1 : Fin 4) * 1 + 1 * 0 = k.val; rw [e1, hk]; omega
  | ⟨2, _⟩ => show win0_2.index t (2 : Fin 4) * 512 + 1 * h.val = h.val; rw [e2]; omega
  | ⟨3, _⟩ => show win0_2.index t (3 : Fin 4) * 512 + 1 * w.val = w.val; rw [e3]; omega

/-- Two points of one image have the same label block. -/
theorem lblk_congr (c : Dev nD) (t t' : Fin cfg0.N) (h : t.val / 13 = t'.val / 13) : lblk m c t = lblk m c t' := by
  have hb : t.val / 13 < 4 := by have := lt52 t; omega
  funext y
  obtain ⟨a, b, p, q, rfl⟩ : ∃ a b p q, y = ix4 a b p q := ⟨y 0, y 1, y 2, y 3, eq_ix4 y⟩
  rw [lblk_apply m c t a b p q ⟨t.val / 13, hb⟩ rfl, lblk_apply m c t' a b p q ⟨t.val / 13, hb⟩ h]

/-- The label plane a point's label block holds is its image's. -/
theorem blkPlane_lblk (c : Dev nD) (t : Fin cfg0.N) (bi : Fin 4) (hbi : bi.val = t.val / 13) :
    blkPlane (lblk m c t) = plane (aG m c) bi := by
  funext h w
  exact lblk_apply m c t 0 0 h w bi hbi

/-- The two loaded prediction blocks as tiles of the prediction arrays. -/
theorem pay12_blk (c : Dev nD) (t : Fin cfg0.N) (bi : Fin 4) (k : Fin 14) (hbi : bi.val = t.val / 13) (hk : k.val = t.val % 13 + 1) :
    k0_pay12 (F := Ideal) (sblk m c t) = tileOf (aS m c) bi k := by
  funext j
  obtain ⟨h, w, rfl⟩ : ∃ h w, j = ix2 h w := ⟨j 0, j 1, eq_ix2 j⟩
  rw [pay12_apply]
  exact sblk_apply m c t h w bi k hbi hk
theorem pay13_blk (c : Dev nD) (t : Fin cfg0.N) (bi : Fin 4) (k : Fin 14) (hbi : bi.val = t.val / 13) (hk : k.val = t.val % 13 + 1) :
    k0_pay13 (F := Ideal) (tblk m c t) = tileOf (aT m c) bi k := by
  funext j
  obtain ⟨h, w, rfl⟩ : ∃ h w, j = ix2 h w := ⟨j 0, j 1, eq_ix2 j⟩
  rw [pay13_apply]
  exact tblk_apply m c t h w bi k hbi hk

/-- The two masks of a point, from its label block and the scratch its image's first step wrote. -/
theorem mskE_eq (c : Dev nD) (t : Fin cfg0.N) (bi : Fin 4) (hbi : bi.val = t.val / 13) :
    mskE (F := Ideal) (grid0.coords t) (lblk m c t) (scr (lblk m c t))
      = maskOf (edgeOf (clsAt (plane (aG m c) bi) (BitVec.ofNat 32 (t.val % 13 + 1)))) := by
  obtain ⟨e, -⟩ := gfacts t
  have hi : (grid0.coords t 1).val < 13 := by rw [e]; exact Nat.mod_lt _ (by decide)
  unfold mskE
  rw [ld_scr0, ld_scr1, ld_scr2, ld_scr3]
  funext j
  obtain ⟨h, w, rfl⟩ : ∃ h w, j = ix2 h w := ⟨j 0, j 1, eq_ix2 j⟩
  rw [edge_mask (grid0.coords t) hi (lblk m c t) h w, blkPlane_lblk m c t bi hbi, e]
  rfl
theorem mskB_eq (c : Dev nD) (t : Fin cfg0.N) (bi : Fin 4) (hbi : bi.val = t.val / 13) :
    mskB (F := Ideal) (grid0.coords t) (lblk m c t) (scr (lblk m c t))
      = maskOf (bodyOf (clsAt (plane (aG m c) bi) (BitVec.ofNat 32 (t.val % 13 + 1)))) := by
  obtain ⟨e, -⟩ := gfacts t
  have hi : (grid0.coords t 1).val < 13 := by rw [e]; exact Nat.mod_lt _ (by decide)
  unfold mskB
  rw [ld_scr0, ld_scr1, ld_scr2, ld_scr3]
  funext j
  obtain ⟨h, w, rfl⟩ : ∃ h w, j = ix2 h w := ⟨j 0, j 1, eq_ix2 j⟩
  rw [body_mask (grid0.coords t) hi (lblk m c t) h w, blkPlane_lblk m c t bi hbi, e]
  rfl

/-- The edge divergence of step `k` of image `b`, zero outside the grid; and the body divergence. -/
def eP (c : Dev nD) (b k : ℕ) : EReal :=
  if h : b < 4 ∧ k < 13 then edgeP (aS m c) (aT m c) (aG m c) ⟨b, h.1⟩ ⟨k, h.2⟩ else 0
def bP (c : Dev nD) (b k : ℕ) : EReal :=
  if h : b < 4 ∧ k < 13 then bodyP (aS m c) (aT m c) (aG m c) ⟨b, h.1⟩ ⟨k, h.2⟩ else 0

/-- A step adds its tile's edge divergence to every entry of the edge accumulator, -/
theorem stepE_eq (c : Dev nD) (t : Fin cfg0.N) (acc : Vec Ideal S1x8x128 .f32) (j : S1x8x128.Idx) :
    stepE (F := Ideal) (grid0.coords t) (lblk m c t) (scr (lblk m c t)) (sblk m c t) (tblk m c t) acc j
      = acc j + eP m c (t.val / 13) (t.val % 13) := by
  have hN := lt52 t
  have hb : t.val / 13 < 4 := by omega
  have hs : t.val % 13 < 13 := Nat.mod_lt _ (by decide)
  unfold stepE
  refine (edge_step _ _ _ acc j).trans ?_
  refine congrArg (fun z => acc j + z) ?_
  unfold eP
  rw [dif_pos ⟨hb, hs⟩, mskE_eq m c t ⟨t.val / 13, hb⟩ rfl,
    pay12_blk m c t ⟨t.val / 13, hb⟩ (Fin.succ ⟨t.val % 13, hs⟩) rfl rfl,
    pay13_blk m c t ⟨t.val / 13, hb⟩ (Fin.succ ⟨t.val % 13, hs⟩) rfl rfl]
  rfl

/-- and its body divergence to every entry of the body accumulator. -/
theorem stepB_eq (c : Dev nD) (t : Fin cfg0.N) (acc : Vec Ideal S1x8x128 .f32) (j : S1x8x128.Idx) :
    stepB (F := Ideal) (grid0.coords t) (lblk m c t) (scr (lblk m c t)) (sblk m c t) (tblk m c t) acc j
      = acc j + bP m c (t.val / 13) (t.val % 13) := by
  have hN := lt52 t
  have hb : t.val / 13 < 4 := by omega
  have hs : t.val % 13 < 13 := Nat.mod_lt _ (by decide)
  unfold stepB
  refine (body_step _ _ _ acc j).trans ?_
  refine congrArg (fun z => acc j + z) ?_
  unfold bP
  rw [dif_pos ⟨hb, hs⟩, mskB_eq m c t ⟨t.val / 13, hb⟩ rfl,
    pay12_blk m c t ⟨t.val / 13, hb⟩ (Fin.succ ⟨t.val % 13, hs⟩) rfl rfl,
    pay13_blk m c t ⟨t.val / 13, hb⟩ (Fin.succ ⟨t.val % 13, hs⟩) rfl rfl]
  rfl

/-- THE INVARIANT, by induction on the point. -/
theorem inv (c : Dev nD) : ∀ (n : ℕ) (hn : n < cfg0.N),
    (outsAt0 m c n hn).1 = (fun _ => ∑ k ∈ Finset.range (n % 13 + 1), eP m c (n / 13) k)
    ∧ (outsAt0 m c n hn).2.1 = (fun _ => ∑ k ∈ Finset.range (n % 13 + 1), bP m c (n / 13) k)
    ∧ (outsAt0 m c n hn).2.2 = scr (lblk m c ⟨n, hn⟩)
  | 0, hn => by
    rw [outsAt0_A m c ⟨0, hn⟩ rfl]
    dsimp only
    rw [outA3, outA4, soutA]
    refine ⟨funext fun j => ?_, funext fun j => ?_, rfl⟩
    · rw [stepE_eq m c ⟨0, hn⟩, pay7_eq]
      simp only [Nat.zero_div, Nat.zero_mod, zero_add, Finset.sum_range_one]
    · rw [stepB_eq m c ⟨0, hn⟩, pay8_eq]
      show Ideal.ofBits .f32 0x00000000#32 + _ = _
      rw [Consts.ofBits_zero]
      simp only [Nat.zero_div, Nat.zero_mod, zero_add, Finset.sum_range_one]
  | n + 1, hn => by
    have hN : n + 1 < 52 := lt_of_lt_of_eq hn (show cfg0.N = 52 from N_0)
    by_cases h0 : (n + 1) % 13 = 0
    · rw [outsAt0_A m c ⟨n + 1, hn⟩ h0]
      dsimp only
      rw [outA3, outA4, soutA]
      refine ⟨funext fun j => ?_, funext fun j => ?_, rfl⟩
      · rw [stepE_eq m c ⟨n + 1, hn⟩, pay7_eq]
        show (0 : EReal) + eP m c ((n + 1) / 13) ((n + 1) % 13) = _
        rw [h0]
        simp only [Finset.sum_range_one, zero_add]
      · rw [stepB_eq m c ⟨n + 1, hn⟩, pay8_eq]
        show Ideal.ofBits .f32 0x00000000#32 + bP m c ((n + 1) / 13) ((n + 1) % 13) = _
        rw [Consts.ofBits_zero, h0]
        simp only [Finset.sum_range_one, zero_add]
    · obtain ⟨ih1, ih2, ih3⟩ := inv c n (Nat.lt_of_succ_lt hn)
      have hd : n / 13 = (n + 1) / 13 := by omega
      have hm : n % 13 + 1 = (n + 1) % 13 := by omega
      have hl : lblk m c ⟨n, Nat.lt_of_succ_lt hn⟩ = lblk m c ⟨n + 1, hn⟩ := lblk_congr m c _ _ hd
      rw [outsAt0_B m c ⟨n + 1, hn⟩ h0]
      dsimp only
      rw [outB3, outB4]
      unfold sout0_B_0
      show stepE _ _ (outsAt0 m c n _).2.2 _ _ (outsAt0 m c n _).1 = _ ∧ stepB _ _ (outsAt0 m c n _).2.2 _ _ (outsAt0 m c n _).2.1 = _ ∧ (outsAt0 m c n _).2.2 = _
      rw [ih1, ih2, ih3, hl]
      refine ⟨funext fun j => ?_, funext fun j => ?_, rfl⟩
      · rw [stepE_eq m c ⟨n + 1, hn⟩]
        show (∑ k ∈ Finset.range (n % 13 + 1), eP m c (n / 13) k) + eP m c ((n + 1) / 13) ((n + 1) % 13) = _
        rw [hd, hm, ← Finset.sum_range_succ]
      · rw [stepB_eq m c ⟨n + 1, hn⟩]
        show (∑ k ∈ Finset.range (n % 13 + 1), bP m c (n / 13) k) + bP m c ((n + 1) / 13) ((n + 1) % 13) = _
        rw [hd, hm, ← Finset.sum_range_succ]

end Cert.Bpkd.K

end
-- ==== Proof.KFinal.lean ====
/- The two output arrays after the run: block `b` of each holds, at every entry, the sum over the thirteen steps of image
   `b` of the tiles' divergences — what the last step of the image wrote back. -/
import proofs.«401587_j24979529793865_3_alg».proof.Proof.KInvariant

set_option maxRecDepth 16384

noncomputable section

open scoped BigOperators

namespace Cert.Bpkd.K

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- The image an entry of an output array belongs to. -/
def img (y : S4x8x128.Idx) : Fin 4 := ⟨(y 0).val, (y 0).isLt⟩
theorem img_val (y : S4x8x128.Idx) : (img y).val = (y 0).val := rfl

/-- The edge output array's final contents, and the body output array's. -/
def G3 (c : Dev nD) : S4x8x128.Idx → EReal :=
  fun y => ∑ s : Fin 13, edgeP (aS m c) (aT m c) (aG m c) (img y) s
def G4 (c : Dev nD) : S4x8x128.Idx → EReal :=
  fun y => ∑ s : Fin 13, bodyP (aS m c) (aT m c) (aG m c) (img y) s
abbrev G3' (c : Dev nD) : Buf (Elt Ideal) ((c.tc : Thread nD τ).loc main_v0_0) := G3 m c
abbrev G4' (c : Dev nD) : Buf (Elt Ideal) ((c.tc : Thread nD τ).loc main_v0_1) := G4 m c

/-- Both accumulator windows sit at the image's block. -/
theorem ofacts : ∀ t : Fin cfg0.N,
    win0_3.index t (0 : Fin 3) = t.val / 13 ∧ win0_3.index t (1 : Fin 3) = 0 ∧ win0_3.index t (2 : Fin 3) = 0
    ∧ win0_4.index t (0 : Fin 3) = t.val / 13 ∧ win0_4.index t (1 : Fin 3) = 0 ∧ win0_4.index t (2 : Fin 3) = 0 :=
  (by decide +kernel : ∀ t : Fin grid0.N, _)

/-- The sum over the steps so far, at an image's last step, is the sum over all thirteen. -/
theorem sum_eP (c : Dev nD) (b : Fin 4) :
    ∑ k ∈ Finset.range 13, eP m c b.val k = ∑ s : Fin 13, edgeP (aS m c) (aT m c) (aG m c) b s := by
  rw [Finset.sum_range]
  refine Finset.sum_congr rfl fun s _ => ?_
  unfold eP
  rw [dif_pos ⟨b.isLt, s.isLt⟩]
theorem sum_bP (c : Dev nD) (b : Fin 4) :
    ∑ k ∈ Finset.range 13, bP m c b.val k = ∑ s : Fin 13, bodyP (aS m c) (aT m c) (aG m c) b s := by
  rw [Finset.sum_range]
  refine Finset.sum_congr rfl fun s _ => ?_
  unfold bP
  rw [dif_pos ⟨b.isLt, s.isLt⟩]

/-- What an image's last step writes back is the image's block of the final contents. -/
theorem flushed3_eq (c : Dev nD) (t : Fin cfg0.N) (hf : (cfg0.win 3).flush t = true) :
    (dats m 0 c).flushed 3 t = ((cfg0.win 3).blk t).view.read (Elt Ideal) (G3' m c) := by
  have hN := lt52 t
  have h12 : t.val % 13 = 12 := (flush0_3 t).mp hf
  obtain ⟨e0, -⟩ := ofacts t
  show (cfg0.win 3).cut (grid0.coords t) ((dats m 0 c).after 3 t) = _
  rw [after0_3, (inv m c t.val t.isLt).1]
  funext y
  show (∑ k ∈ Finset.range (t.val % 13 + 1), eP m c (t.val / 13) k) = G3 m c (((cfg0.win 3).blk t).view.emb y)
  have hy0 : (y 0).val < 1 := (y 0).isLt
  have hy : ((((cfg0.win 3).blk t).view.emb y) 0).val = t.val / 13 := by
    show win0_3.index t (0 : Fin 3) * 1 + 1 * (y 0).val = t.val / 13
    rw [e0]; omega
  have h13 : t.val % 13 + 1 = 13 := by omega
  rw [h13]
  unfold G3
  rw [← sum_eP m c (img (((cfg0.win 3).blk t).view.emb y)), img_val, hy]
theorem flushed4_eq (c : Dev nD) (t : Fin cfg0.N) (hf : (cfg0.win 4).flush t = true) :
    (dats m 0 c).flushed 4 t = ((cfg0.win 4).blk t).view.read (Elt Ideal) (G4' m c) := by
  have hN := lt52 t
  have h12 : t.val % 13 = 12 := (flush0_4 t).mp hf
  obtain ⟨-, -, -, e0, -⟩ := ofacts t
  show (cfg0.win 4).cut (grid0.coords t) ((dats m 0 c).after 4 t) = _
  rw [after0_4, (inv m c t.val t.isLt).2.1]
  funext y
  show (∑ k ∈ Finset.range (t.val % 13 + 1), bP m c (t.val / 13) k) = G4 m c (((cfg0.win 4).blk t).view.emb y)
  have hy0 : (y 0).val < 1 := (y 0).isLt
  have hy : ((((cfg0.win 4).blk t).view.emb y) 0).val = t.val / 13 := by
    show win0_4.index t (0 : Fin 3) * 1 + 1 * (y 0).val = t.val / 13
    rw [e0]; omega
  have h13 : t.val % 13 + 1 = 13 := by omega
  rw [h13]
  unfold G4
  rw [← sum_bP m c (img (((cfg0.win 4).blk t).view.emb y)), img_val, hy]

/-- An index of an output array is in a point's block iff each coordinate is in the block's range on its axis. -/
theorem mem_blk3 (t : Fin cfg0.N) (i : S4x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_0).slice (win0_3.rect t)).set ↔ _
  rw [View.set_slice_whole, Rect.mem_set_unit]
  exact Iff.rfl
theorem mem_blk4 (t : Fin cfg0.N) (i : S4x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_1).slice (win0_4.rect t)).set ↔ _
  rw [View.set_slice_whole, Rect.mem_set_unit]
  exact Iff.rfl

/-- The last step of image `i 0` covers index `i`. -/
theorem cover3 (i : S4x8x128.Idx) : ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 128 := (i 2).isLt
  have hN : cfg0.N = 52 := N_0
  refine ⟨⟨13 * (i 0).val + 12, by rw [hN]; omega⟩, (flush0_3 _).mpr (by show (13 * (i 0).val + 12) % 13 = 12; omega), ?_⟩
  obtain ⟨e0, e1, e2, -⟩ := ofacts ⟨13 * (i 0).val + 12, by rw [hN]; omega⟩
  rw [mem_blk3]
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 128 ≤ (i 2).val ∧ (i 2).val < win0_3.index _ (2 : Fin 3) * 128 + 128; rw [e2]; omega
theorem cover4 (i : S4x8x128.Idx) : ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 128 := (i 2).isLt
  have hN : cfg0.N = 52 := N_0
  refine ⟨⟨13 * (i 0).val + 12, by rw [hN]; omega⟩, (flush0_4 _).mpr (by show (13 * (i 0).val + 12) % 13 = 12; omega), ?_⟩
  obtain ⟨-, -, -, e0, e1, e2⟩ := ofacts ⟨13 * (i 0).val + 12, by rw [hN]; omega⟩
  rw [mem_blk4]
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 8 ≤ (i 1).val ∧ (i 1).val < win0_4.index _ (1 : Fin 3) * 8 + 8; rw [e1]; omega
  | ⟨2, _⟩ => show win0_4.index _ (2 : Fin 3) * 128 ≤ (i 2).val ∧ (i 2).val < win0_4.index _ (2 : Fin 3) * 128 + 128; rw [e2]; omega

/-- THE OUTPUT ARRAYS after the run. -/
theorem final3 (c : Dev nD) : (dats m 0 c).arrAt 3 cfg0.N = G3' m c :=
  (dats m 0 c).arrAt_eq_of_cover 3 (G3' m c) (flushed3_eq m c) cover3
theorem final4 (c : Dev nD) : (dats m 0 c).arrAt 4 cfg0.N = G4' m c :=
  (dats m 0 c).arrAt_eq_of_cover 4 (G4' m c) (flushed4_eq m c) cover4

/-- Entry `(b, 0, 0)` of each, which is all the host operations after the region read. -/
theorem G3_apply (c : Dev nD) (b : Fin 4) : G3 m c (ix3 b 0 0) = ∑ s : Fin 13, edgeP (aS m c) (aT m c) (aG m c) b s := rfl
theorem G4_apply (c : Dev nD) (b : Fin 4) : G4 m c (ix3 b 0 0) = ∑ s : Fin 13, bodyP (aS m c) (aT m c) (aG m c) b s := rfl

end Cert.Bpkd.K

end
-- ==== Proof.KTail.lean ====
/-
  The host operations after the kernel, as one function of the kernel's output array. Of the [4, 8, 128] array only the
  four entries (b, 0, 0) are read: they are cut out, laid out as a vector of four, summed from the initial value zero,
  multiplied by the weight, and divided by 56.
-/
import proofs.«401587_j24979529793865_3_alg».proof.Proof.Spec
import proofs.«401587_j24979529793865_3_alg».proof.Proof.Consts
import proofs.«401587_j24979529793865_3_alg».proof.Proof.Gen.KernelIdeal
import Idealize.ShloMosaic.PureOps.Ideal.Laws
import Idealize.ShloMosaic.Lib.Pipeline.Value
import Idealize.ShloMosaic.Lib.ValueLayout
import Idealize.ShloMosaic.Lib.ValueIdx
import Idealize.ShloMosaic.Lib.ValueIdxRank1

noncomputable section

open scoped BigOperators

namespace Cert.Bpkd.K

open Idealize.ShloMosaic Idealize.ShloMosaic.ValueIdx Cert.KernelIdeal Cert.KernelIdeal.Gen

/-- The cut [0:4, 0:1, 0:1] of the output array, laid out as a vector of four, holds at `k` the array's entry
    `(k, 0, 0)`. -/
private theorem slab_apply (A : FVec Ideal S4x8x128 .f32) (k : Fin 4) :
    shapeCast S4 (extractStridedSlice S4x1x1 ![0, 0, 0] A slices_S4x8x128_S4x1x1_0_0_0) shapeCasts_S4x1x1_S4 (ix1 k)
      = A (ix3 k 0 0) := by
  refine (shapeCast_apply _ _ (ix1 k) (ix3 k (0 : Fin 1) (0 : Fin 1)) ?_).trans ?_
  · rw [Shape.rowMajor_val_three, Shape.rowMajor_val_one]
    show (k.val * 1 + 0) * 1 + 0 = k.val
    omega
  · exact extractStridedSlice_apply _ _ _ _ (ix3 k (0 : Fin 8) (0 : Fin 128)) (fun a =>
      match a with
      | ⟨0, _⟩ => (Nat.zero_add _).symm
      | ⟨1, _⟩ => rfl
      | ⟨2, _⟩ => rfl)

/-- The tail at any weight word: the weight times (zero plus the sum of the four entries), over 56. -/
theorem tail_eq (wbits : BitVec 32) (A : FVec Ideal S4x8x128 .f32) (E : Fin 4 → EReal) (hA : ∀ b : Fin 4, A (ix3 b 0 0) = E b) :
    Host.divf (F := Ideal) (mulf (F := Ideal) (constant (F := Ideal) S_ .f32 wbits)
        (Host.reduceAdd (F := Ideal) (shapeCast S4 (extractStridedSlice S4x1x1 ![0, 0, 0] A slices_S4x8x128_S4x1x1_0_0_0) shapeCasts_S4x1x1_S4)
          (constant (F := Ideal) S_ .f32 0x00000000#32) reducesTo_S4_S_d0 h_S_))
      (constant (F := Ideal) S_ .f32 0x42600000#32)
    = fun _ => Ideal.div (Ideal.ofBits .f32 wbits * (0 + ∑ b : Fin 4, E b)) ((56 : ℝ) : EReal) := by
  funext j
  have hs : Ideal.hostReduceAdd reducesTo_S4_S_d0
        (shapeCast S4 (extractStridedSlice S4x1x1 ![0, 0, 0] A slices_S4x8x128_S4x1x1_0_0_0) shapeCasts_S4x1x1_S4)
        (Ideal.ofBits .f32 0x00000000#32) j
      = 0 + ∑ b : Fin 4, E b := by
    rw [Ideal.hostReduceAdd_total reducesTo_S4_S_d0 (fun b => b.elim0), Consts.ofBits_zero]
    refine congrArg (fun z => (0 : EReal) + z) ?_
    refine (Equiv.sum_comp (idxEquiv1 (n := 4)).symm _).symm.trans (Finset.sum_congr rfl fun k _ => ?_)
    exact (slab_apply A k).trans (hA k)
  show Ideal.div (Ideal.ofBits .f32 wbits * Ideal.hostReduceAdd reducesTo_S4_S_d0
        (shapeCast S4 (extractStridedSlice S4x1x1 ![0, 0, 0] A slices_S4x8x128_S4x1x1_0_0_0) shapeCasts_S4x1x1_S4)
        (Ideal.ofBits .f32 0x00000000#32) j) (Ideal.ofBits .f32 0x42600000#32) = _
  rw [hs, Consts.ofBits_56]

/-- The edge result: the weight 500. -/
theorem tail_edge (A : FVec Ideal S4x8x128 .f32) (P : Fin 4 → Fin 13 → EReal) (hA : ∀ b : Fin 4, A (ix3 b 0 0) = ∑ s : Fin 13, P b s) :
    Host.divf (F := Ideal) (mulf (F := Ideal) (constant (F := Ideal) S_ .f32 0x43FA0000#32)
        (Host.reduceAdd (F := Ideal) (shapeCast S4 (extractStridedSlice S4x1x1 ![0, 0, 0] A slices_S4x8x128_S4x1x1_0_0_0) shapeCasts_S4x1x1_S4)
          (constant (F := Ideal) S_ .f32 0x00000000#32) reducesTo_S4_S_d0 h_S_))
      (constant (F := Ideal) S_ .f32 0x42600000#32)
    = fun _ => lossK ((500 : ℝ) : EReal) P := by
  rw [tail_eq 0x43FA0000#32 A (fun b => ∑ s : Fin 13, P b s) hA, Consts.ofBits_500]
  rfl

/-- The body result: the weight 200. -/
theorem tail_body (A : FVec Ideal S4x8x128 .f32) (P : Fin 4 → Fin 13 → EReal) (hA : ∀ b : Fin 4, A (ix3 b 0 0) = ∑ s : Fin 13, P b s) :
    Host.divf (F := Ideal) (mulf (F := Ideal) (constant (F := Ideal) S_ .f32 0x43480000#32)
        (Host.reduceAdd (F := Ideal) (shapeCast S4 (extractStridedSlice S4x1x1 ![0, 0, 0] A slices_S4x8x128_S4x1x1_0_0_0) shapeCasts_S4x1x1_S4)
          (constant (F := Ideal) S_ .f32 0x00000000#32) reducesTo_S4_S_d0 h_S_))
      (constant (F := Ideal) S_ .f32 0x42600000#32)
    = fun _ => lossK ((200 : ℝ) : EReal) P := by
  rw [tail_eq 0x43480000#32 A (fun b => ∑ s : Fin 13, P b s) hA, Consts.ofBits_200]
  rfl

end Cert.Bpkd.K

end
-- ==== Proof.KValue.lean ====
/- The kernel's run read back: both results as the weighted sums of the 52 tiles' divergences. The generated frame run
   leaves every output array at what the write-backs left; the accumulation over the grid says what that is; the host
   operations after the region turn entry (b, 0, 0) of the four blocks into the loss. -/
import proofs.«401587_j24979529793865_3_alg».proof.Proof.Spec
import proofs.«401587_j24979529793865_3_alg».proof.Proof.Consts
import proofs.«401587_j24979529793865_3_alg».proof.Proof.KPayF
import proofs.«401587_j24979529793865_3_alg».proof.Proof.KPayM
import proofs.«401587_j24979529793865_3_alg».proof.Proof.KFinal
import proofs.«401587_j24979529793865_3_alg».proof.Proof.KTail
import proofs.«401587_j24979529793865_3_alg».proof.Proof.Gen.KernelIdeal.Frame
import Idealize.ShloMosaic.PureOps.Ideal.Laws
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.Bpkd.K

open Idealize.ShloMosaic Idealize.ShloMosaic.TcCoe Idealize.SL.Sem Idealize.ShloMosaic.ValueIdx Cert.KernelIdeal Cert.KernelIdeal.Gen
open Idealize.ShloMosaic.Tactic Idealize.ShloMosaic.StableHlo

/-- The first result after the host operations that follow the region: the edge loss. -/
theorem v8_eq (m : (ℓ : Loc nD τ sig) → Buf (Elt Ideal) ℓ) (c : Dev nD) :
    Pipeline.afterTail₀ cfgs (dats m) 0 (V0 m) [hostOps1] c main_v8
      = fun _ => lossK ((500 : ℝ) : EReal) (edgeP (aS m c) (aT m c) (aG m c)) := by
  unfold Pipeline.afterTail₀
  show StableHlo.after hostOps1 _ (Proc.devRef .tc main_v8) = _
  after_results
  have e : Pipeline.withArrays spec0 c (V0 m c) (fun w => (dats m 0 c).arrAt w cfg0.N) (Proc.devRef .tc main_v0_0) = G3 m c :=
    (Pipeline.withArrays_arr spec0 launch0.win.arr_inj c _ _ 3).trans (final3 m c)
  rw [e]
  exact tail_edge (G3 m c) _ (G3_apply m c)

/-- The second: the body loss. -/
theorem v10_eq (m : (ℓ : Loc nD τ sig) → Buf (Elt Ideal) ℓ) (c : Dev nD) :
    Pipeline.afterTail₀ cfgs (dats m) 0 (V0 m) [hostOps1] c main_v10
      = fun _ => lossK ((200 : ℝ) : EReal) (bodyP (aS m c) (aT m c) (aG m c)) := by
  unfold Pipeline.afterTail₀
  show StableHlo.after hostOps1 _ (Proc.devRef .tc main_v10) = _
  after_results
  have e : Pipeline.withArrays spec0 c (V0 m c) (fun w => (dats m 0 c).arrAt w cfg0.N) (Proc.devRef .tc main_v0_1) = G4 m c :=
    (Pipeline.withArrays_arr spec0 launch0.win.arr_inj c _ _ 4).trans (final4 m c)
  rw [e]
  exact tail_body (G4 m c) _ (G4_apply m c)

/-- Every weakly fair execution of the idealized kernel program ends with the first result at the edge loss and the second
    at the body loss of the argument arrays, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
          = (fun _ => lossK ((500 : ℝ) : EReal) (edgeP (m ((c.tc : Thread nD τ).loc main_arg0)) (m ((c.tc : Thread nD τ).loc main_arg1)) (m ((c.tc : Thread nD τ).loc main_arg2))))
      ∧ r.2.mem ((c.tc : Thread nD τ).loc main_v10)
          = (fun _ => lossK ((200 : ℝ) : EReal) (bodyP (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨((h c).2 main_v8 (by decide)).trans (v8_eq m c),
      ((h c).2 main_v10 (by decide)).trans (v10_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩)
    (run_main m ρ)

end Cert.Bpkd.K

end
-- ==== Proof.RScatter.lean ====
/- The reference's class indicator after class 0's plane is cleared, read at an index.

   The indicator `val_main_v4` (label of image `b` at pixel `(h, w)` compared with the class number `c`) is overwritten by a
   scatter: every entry `(b, h, w)` of an all-zero update is written, in row-major order, at the operand index
   `(b, 0 + 0, h, w)`: the one scatter index is the word 0, and the class axis is an inserted window axis. All update
   values are the same word, so the result of the left fold does not depend on the order: an entry of the operand that some
   update entry lands on reads that word, every other entry keeps the operand's value. An update entry lands on
   `(b, c, h, w)` exactly when `c = 0`. -/
import proofs.«401587_j24979529793865_3_alg».proof.Proof.Spec
import proofs.«401587_j24979529793865_3_alg».proof.Proof.RefReadP

noncomputable section

open scoped BigOperators

namespace Cert.Bpkd.R

open Idealize.ShloMosaic Idealize.ShloMosaic.ValueIdx Cert.ReferenceIdeal Cert.ReferenceIdeal.ReadP

/-! ## A left fold of overwrites by one value

  `st` is one step of the fold: it takes the array so far and a position `n` of the list; `g n` is the entry the step
  overwrites, if any. Where the step overwrites, it writes `z`; elsewhere it leaves the array as it was. -/

/-- An entry no step of the list lands on keeps its starting value. -/
private theorem fold_miss {β ι α : Type} (st : (ι → α) → β → (ι → α)) (g : β → Option ι)
    (hmiss : ∀ r n i', g n ≠ some i' → st r n i' = r i')
    (l : List β) (x : ι → α) (i' : ι) (h : ∀ n ∈ l, g n ≠ some i') : l.foldl st x i' = x i' := by
  induction l generalizing x with
  | nil => rfl
  | cons b l ih =>
    rw [List.foldl_cons, ih _ (fun m hm => h m (List.mem_cons_of_mem _ hm)), hmiss _ _ _ (h b List.mem_cons_self)]

/-- An entry some step of the list lands on ends as `z`: look at the LAST step that lands on it; it writes `z`, and no
    later step touches the entry. -/
private theorem fold_hit {β ι α : Type} (st : (ι → α) → β → (ι → α)) (g : β → Option ι) (z : α)
    (hhit : ∀ r n i', g n = some i' → st r n i' = z)
    (hmiss : ∀ r n i', g n ≠ some i' → st r n i' = r i')
    (l : List β) (x : ι → α) (i' : ι) (h : ∃ n ∈ l, g n = some i') : l.foldl st x i' = z := by
  induction l generalizing x with
  | nil => obtain ⟨n, hn, _⟩ := h; cases hn
  | cons a l ih =>
    rw [List.foldl_cons]
    by_cases h' : ∃ n ∈ l, g n = some i'
    · exact ih _ h'
    · obtain ⟨n, hn, e⟩ := h
      rcases List.mem_cons.1 hn with rfl | hn
      · rw [fold_miss st g hmiss l _ i' (fun m hm e' => h' ⟨m, hm, e'⟩), hhit _ _ _ e]
      · exact absurd ⟨n, hn, e⟩ h'

/-! ## Where an update entry lands -/

/-- The scatter's dimension numbers: the update's three axes are window axes, the operand's class axis is inserted, and
    the one component of the scatter index is a start on the class axis. -/
private abbrev dS := scatter_S4x14x512x512_S1_S4x512x512_012_1_1_0

/-- The one scatter index is the word 0. -/
private theorem v5_eq (k : S1.Idx) : val_main_v5 (F := Ideal) k = 0#32 := by
  rw [val_main_v5_apply, val_main_c_apply]

/-- Every update value is the bit 0. -/
private theorem v6_eq (k : S4x512x512.Idx) : val_main_v6 (F := Ideal) k = 0#1 := by
  rw [val_main_v6_apply, val_main_c_0_apply]

/-- The window starts at 0 on every operand axis: on the class axis the start is the scatter index, the word 0 read as an
    integer, and on the three other axes, which the index vector does not name, it is 0 by definition. -/
private theorem start_eq (j : S4x512x512.Idx) (a : Fin S4x14x512x512.rank) :
    dS.start j (val_main_v5 (F := Ideal)) a = 0 := by
  unfold ScatterDims.start
  split
  · rw [v5_eq]; rfl
  · rfl

/-- The window coordinate: the operand's kept axes 0, 2, 3 take the update's axes 0, 1, 2 in order; the inserted class
    axis takes 0. -/
private theorem window_0 (j : S4x512x512.Idx) : dS.window j ⟨0, by decide⟩ = (j 0).val := rfl
private theorem window_1 (j : S4x512x512.Idx) : dS.window j ⟨1, by decide⟩ = 0 := rfl
private theorem window_2 (j : S4x512x512.Idx) : dS.window j ⟨2, by decide⟩ = (j 1).val := rfl
private theorem window_3 (j : S4x512x512.Idx) : dS.window j ⟨3, by decide⟩ = (j 2).val := rfl

/-- Update entry `(b, h, w)` lands at operand entry `(b, 0, h, w)`: start plus window coordinate is inside the operand on all
    four axes (`b < 4`, `0 < 14`, `h, w < 512`), so the update is not dropped. -/
private theorem result_eq (b : Fin 4) (h w : Fin 512) :
    dS.resultIdx? (ix3 b h w) (val_main_v5 (F := Ideal)) = some (ix4 b 0 h w) := by
  unfold ScatterDims.resultIdx?
  have hb : ∀ a : Fin S4x14x512x512.rank,
      0 ≤ dS.start (ix3 b h w) (val_main_v5 (F := Ideal)) a + dS.window (ix3 b h w) a ∧
        dS.start (ix3 b h w) (val_main_v5 (F := Ideal)) a + dS.window (ix3 b h w) a < S4x14x512x512.size a := by
    intro a
    rw [start_eq]
    match a with
    | ⟨0, _⟩ => rw [window_0]; show (0 : ℤ) ≤ 0 + (b.val : ℤ) ∧ 0 + (b.val : ℤ) < ((4 : ℕ) : ℤ); omega
    | ⟨1, _⟩ => rw [window_1]; show (0 : ℤ) ≤ 0 + ((0 : ℕ) : ℤ) ∧ 0 + ((0 : ℕ) : ℤ) < ((14 : ℕ) : ℤ); omega
    | ⟨2, _⟩ => rw [window_2]; show (0 : ℤ) ≤ 0 + (h.val : ℤ) ∧ 0 + (h.val : ℤ) < ((512 : ℕ) : ℤ); omega
    | ⟨3, _⟩ => rw [window_3]; show (0 : ℤ) ≤ 0 + (w.val : ℤ) ∧ 0 + (w.val : ℤ) < ((512 : ℕ) : ℤ); omega
  rw [dif_pos hb]
  refine congrArg some (funext fun a => Fin.ext ?_)
  show (dS.start (ix3 b h w) (val_main_v5 (F := Ideal)) a + dS.window (ix3 b h w) a).toNat = (ix4 b (0 : Fin 14) h w a).val
  rw [start_eq]
  match a with
  | ⟨0, _⟩ => rw [window_0]; show (0 + (b.val : ℤ)).toNat = b.val; omega
  | ⟨1, _⟩ => rw [window_1]; show (0 + ((0 : ℕ) : ℤ)).toNat = 0; omega
  | ⟨2, _⟩ => rw [window_2]; show (0 + (h.val : ℤ)).toNat = h.val; omega
  | ⟨3, _⟩ => rw [window_3]; show (0 + (w.val : ℤ)).toNat = w.val; omega

/-- So whatever an update entry lands on has class coordinate 0. -/
private theorem result_class (j : S4x512x512.Idx) (i : S4x14x512x512.Idx)
    (hji : dS.resultIdx? j (val_main_v5 (F := Ideal)) = some i) : (i 1).val = 0 := by
  obtain ⟨b, h, w, rfl⟩ : ∃ (b : Fin 4) (h w : Fin 512), j = ix3 b h w := ⟨j 0, j 1, j 2, eq_ix3 j⟩
  rw [result_eq] at hji
  rw [← Option.some.inj hji]
  rfl

/-! ## The indicator before the scatter, at an index -/

/-- The compare reads the label of image `b` at pixel `(h, w)` (the label array broadcast along the class axis) against the
    class number (the iota along the class axis, broadcast over images and pixels). -/
private theorem v4_eq (x2 : IVec SLab 32) (b : Fin 4) (c : Fin 14) (h w : Fin 512) :
    val_main_v4 (F := Ideal) x2 (ix4 b c h w) = IntOp.cmpi .eq (x2 (ix4 b 0 h w)) (BitVec.ofNat 32 c.val) := by
  rw [val_main_v4_apply, val_main_v2_apply, val_main_v3_apply, val_main_v1_apply, val_main_v0_apply]
  have e2 : idx_main_v2 (ix4 b c h w) = ix4 b 0 h w := by
    funext a
    match a with
    | ⟨0, _⟩ => rfl
    | ⟨1, _⟩ => rfl
    | ⟨2, _⟩ => rfl
    | ⟨3, _⟩ => rfl
  have e1 : (idx_main_v1 (idx_main_v3 (ix4 b c h w)) 0).val = c.val := by
    show (((0 * 14 + c.val) * 1 + 0) * 1 + 0) = c.val
    omega
  rw [e2, e1]

/-! ## The scatter at an index -/

/-- The class indicator the reference pads and shifts: the comparison of the label with the class number, and zero on
    class 0's plane, which the scatter overwrites. -/
theorem v7_apply (x2 : IVec SLab 32) (b : Fin 4) (c : Fin 14) (h w : Fin 512) :
    val_main_v7 (F := Ideal) x2 (ix4 b c h w)
      = if c.val = 0 then 0#1 else IntOp.cmpi .eq (x2 (ix4 b 0 h w)) (BitVec.ofNat 32 c.val) := by
  unfold val_main_v7 Host.scatter
  beta_reduce
  by_cases hc : c.val = 0
  · -- class 0: update entry (b, h, w) lands here
    rw [if_pos hc]
    obtain rfl : c = 0 := Fin.ext hc
    have hmem : S4x512x512.rowMajor (ix3 b h w) ∈ List.finRange S4x512x512.numel := List.mem_finRange _
    generalize List.finRange S4x512x512.numel = l at hmem ⊢
    refine fold_hit _ (fun n => dS.resultIdx? (S4x512x512.rowMajor.symm n) (val_main_v5 (F := Ideal))) 0#1 ?_ ?_ l _ _
      ⟨_, hmem, ?_⟩
    · -- the step that lands on an entry writes the update's value, the bit 0
      intro r n i' hg
      have hg' : dS.resultIdx? (S4x512x512.rowMajor.symm n) (val_main_v5 (F := Ideal)) = some i' := hg
      beta_reduce
      generalize dS.resultIdx? (S4x512x512.rowMajor.symm n) (val_main_v5 (F := Ideal)) = o at hg' ⊢
      subst hg'
      dsimp only
      rw [if_pos rfl, v6_eq]
    · -- a step that lands elsewhere, or nowhere, leaves the entry
      intro r n i' hg
      have hg' : dS.resultIdx? (S4x512x512.rowMajor.symm n) (val_main_v5 (F := Ideal)) ≠ some i' := hg
      beta_reduce
      generalize dS.resultIdx? (S4x512x512.rowMajor.symm n) (val_main_v5 (F := Ideal)) = o at hg' ⊢
      cases o with
      | none => rfl
      | some i =>
        dsimp only
        rw [if_neg (fun e => hg' (by rw [e]))]
    · show dS.resultIdx? (S4x512x512.rowMajor.symm (S4x512x512.rowMajor (ix3 b h w))) (val_main_v5 (F := Ideal)) = _
      rw [Equiv.symm_apply_apply, result_eq]
  · -- another class: nothing lands here, since every update entry lands on class 0's plane
    rw [if_neg hc]
    generalize List.finRange S4x512x512.numel = l
    refine (fold_miss _ (fun n => dS.resultIdx? (S4x512x512.rowMajor.symm n) (val_main_v5 (F := Ideal))) ?_ l _ _
      (fun n _ hg => hc (result_class _ _ hg))).trans (v4_eq x2 b c h w)
    intro r n i' hg
    have hg' : dS.resultIdx? (S4x512x512.rowMajor.symm n) (val_main_v5 (F := Ideal)) ≠ some i' := hg
    beta_reduce
    generalize dS.resultIdx? (S4x512x512.rowMajor.symm n) (val_main_v5 (F := Ideal)) = o at hg' ⊢
    cases o with
    | none => rfl
    | some i =>
      dsimp only
      rw [if_neg (fun e => hg' (by rw [e]))]

end Cert.Bpkd.R

end
-- ==== Proof.RMask.lean ====
/-
  The reference's two masks read at an index.

  The reference pads the class indicator with one pixel of "no class" all round and reads it through four slices: the
  row before, the row after, the column before and the column after a pixel. So the padded array at the shifted
  coordinates (p, q) is the indicator of the specification (rows and columns 0 and 513 the border), each slice reads
  it at the pixel's shifted coordinates moved by one, and the edge and body masks are the five-bit formulas over those
  readings. A one-bit word's complement is its exclusive or with one, which is how the body formula is written.
-/
import proofs.«401587_j24979529793865_3_alg».proof.Proof.Spec
import proofs.«401587_j24979529793865_3_alg».proof.Proof.RefReadP
import proofs.«401587_j24979529793865_3_alg».proof.Proof.RScatter
import Idealize.ShloMosaic.Lib.KernelVsHost

noncomputable section

open scoped BigOperators

namespace Cert.Bpkd.R

open Idealize.ShloMosaic Idealize.ShloMosaic.ValueIdx Cert.ReferenceIdeal Cert.ReferenceIdeal.Gen Cert.ReferenceIdeal.ReadP

/-- The class indicator padded with a value that is zero everywhere, read at the shifted coordinates `(p, q)`: the
    specification's indicator. Inside the border it is the indicator at `(p − 1, q − 1)`; on the border it is the
    padding value, and the specification's indicator is zero there too. -/
private theorem padded_apply (x2 : IVec SLab 32) (v : S_.Idx → BitVec 1) (hv : ∀ i, v i = 0#1)
    (b : Fin 4) (c : Fin 14) (p q : ℕ) (hp : p < 514) (hq : q < 514) :
    pad S4x14x514x514 ![0, 0, 1, 1] ![0, 0, 1, 1] ![0, 0, 0, 0] (val_main_v7 (F := Ideal) x2) v
        pads_S4x14x512x512_S4x14x514x514_000_000_110_110 h_S_ (ix4 b c (⟨p, hp⟩ : Fin 514) (⟨q, hq⟩ : Fin 514))
      = clsAtR x2 b c p q := by
  by_cases hin : (1 ≤ p ∧ p ≤ 512) ∧ (1 ≤ q ∧ q ≤ 512)
  · have hp' : p - 1 < 512 := by omega
    have hq' : q - 1 < 512 := by omega
    refine (pad_apply_of_inside _ _ _ (val_main_v7 (F := Ideal) x2) v
      pads_S4x14x512x512_S4x14x514x514_000_000_110_110 h_S_ _
      (ix4 b c (⟨p - 1, hp'⟩ : Fin 512) (⟨q - 1, hq'⟩ : Fin 512)) ?_).trans ?_
    · intro a
      match a with
      | ⟨0, _⟩ => show b.val = 0 + b.val * (0 + 1); omega
      | ⟨1, _⟩ => show c.val = 0 + c.val * (0 + 1); omega
      | ⟨2, _⟩ => show p = 1 + (p - 1) * (0 + 1); omega
      | ⟨3, _⟩ => show q = 1 + (q - 1) * (0 + 1); omega
    · rw [v7_apply]
      unfold clsAtR clsAt plane
      rw [dif_pos hin]
  · have hz : clsAtR x2 b c p q = 0#1 := by
      unfold clsAtR clsAt
      rw [dif_neg hin]
      split <;> rfl
    rw [hz]
    by_cases hP : 1 ≤ p ∧ p ≤ 512
    · have hQ : ¬(1 ≤ q ∧ q ≤ 512) := fun h => hin ⟨hP, h⟩
      refine (pad_apply_of_not_inside _ _ _ (val_main_v7 (F := Ideal) x2) v
        pads_S4x14x512x512_S4x14x514x514_000_000_110_110 h_S_ _ (⟨3, by decide⟩ : Fin 4) ?_).trans (hv _)
      show ¬(1 ≤ q ∧ (q - 1) % (0 + 1) = 0 ∧ (q - 1) / (0 + 1) < 512)
      omega
    · refine (pad_apply_of_not_inside _ _ _ (val_main_v7 (F := Ideal) x2) v
        pads_S4x14x512x512_S4x14x514x514_000_000_110_110 h_S_ _ (⟨2, by decide⟩ : Fin 4) ?_).trans (hv _)
      show ¬(1 ≤ p ∧ (p - 1) % (0 + 1) = 0 ∧ (p - 1) / (0 + 1) < 512)
      omega

/-- The first padded array (the one the dilation reads) at the shifted coordinates. -/
private theorem v8_apply (x2 : IVec SLab 32) (b : Fin 4) (c : Fin 14) (p q : ℕ) (hp : p < 514) (hq : q < 514) :
    val_main_v8 (F := Ideal) x2 (ix4 b c (⟨p, hp⟩ : Fin 514) (⟨q, hq⟩ : Fin 514)) = clsAtR x2 b c p q := by
  unfold val_main_v8
  exact padded_apply x2 _ (fun i => val_main_c_1_apply i) b c p q hp hq

/-- The second padded array (the one the erosion reads) at the shifted coordinates. -/
private theorem v17_apply (x2 : IVec SLab 32) (b : Fin 4) (c : Fin 14) (p q : ℕ) (hp : p < 514) (hq : q < 514) :
    val_main_v17 (F := Ideal) x2 (ix4 b c (⟨p, hp⟩ : Fin 514) (⟨q, hq⟩ : Fin 514)) = clsAtR x2 b c p q := by
  unfold val_main_v17
  exact padded_apply x2 _ (fun i => val_main_c_2_apply i) b c p q hp hq

/-- The indicator itself is the padded one at the pixel's shifted coordinates. -/
private theorem v7_cls (x2 : IVec SLab 32) (b : Fin 4) (c : Fin 14) (h w : Fin 512) :
    val_main_v7 (F := Ideal) x2 (ix4 b c h w) = clsAtR x2 b c (h.val + 1) (w.val + 1) := by
  have hh := h.isLt
  have hw := w.isLt
  rw [v7_apply]
  unfold clsAtR clsAt plane
  rw [dif_pos (by omega)]
  rfl

/-! The four slices' source indices, by coordinates. -/

private theorem idx_rowBefore (b : Fin 4) (c : Fin 14) (h w : Fin 512) :
    idx_main_v9 (ix4 b c h w) = ix4 b c (⟨h.val, by omega⟩ : Fin 514) (⟨w.val + 1, by omega⟩ : Fin 514) := by
  funext a
  match a with
  | ⟨0, _⟩ => rfl
  | ⟨1, _⟩ => rfl
  | ⟨2, _⟩ => rfl
  | ⟨3, _⟩ => exact Fin.ext (Nat.add_comm 1 w.val)

private theorem idx_rowAfter (b : Fin 4) (c : Fin 14) (h w : Fin 512) :
    idx_main_v11 (ix4 b c h w) = ix4 b c (⟨h.val + 2, by omega⟩ : Fin 514) (⟨w.val + 1, by omega⟩ : Fin 514) := by
  funext a
  match a with
  | ⟨0, _⟩ => rfl
  | ⟨1, _⟩ => rfl
  | ⟨2, _⟩ => exact Fin.ext (Nat.add_comm 2 h.val)
  | ⟨3, _⟩ => exact Fin.ext (Nat.add_comm 1 w.val)

private theorem idx_colBefore (b : Fin 4) (c : Fin 14) (h w : Fin 512) :
    idx_main_v13 (ix4 b c h w) = ix4 b c (⟨h.val + 1, by omega⟩ : Fin 514) (⟨w.val, by omega⟩ : Fin 514) := by
  funext a
  match a with
  | ⟨0, _⟩ => rfl
  | ⟨1, _⟩ => rfl
  | ⟨2, _⟩ => exact Fin.ext (Nat.add_comm 1 h.val)
  | ⟨3, _⟩ => rfl

private theorem idx_colAfter (b : Fin 4) (c : Fin 14) (h w : Fin 512) :
    idx_main_v15 (ix4 b c h w) = ix4 b c (⟨h.val + 1, by omega⟩ : Fin 514) (⟨w.val + 2, by omega⟩ : Fin 514) := by
  funext a
  match a with
  | ⟨0, _⟩ => rfl
  | ⟨1, _⟩ => rfl
  | ⟨2, _⟩ => exact Fin.ext (Nat.add_comm 1 h.val)
  | ⟨3, _⟩ => exact Fin.ext (Nat.add_comm 2 w.val)

/-! The eight slices at a pixel: the specification's indicator at the neighbour's shifted coordinates. -/

private theorem v9_cls (x2 : IVec SLab 32) (b : Fin 4) (c : Fin 14) (h w : Fin 512) :
    val_main_v9 (F := Ideal) x2 (ix4 b c h w) = clsAtR x2 b c h.val (w.val + 1) := by
  rw [val_main_v9_apply, idx_rowBefore, v8_apply]
private theorem v11_cls (x2 : IVec SLab 32) (b : Fin 4) (c : Fin 14) (h w : Fin 512) :
    val_main_v11 (F := Ideal) x2 (ix4 b c h w) = clsAtR x2 b c (h.val + 2) (w.val + 1) := by
  rw [val_main_v11_apply, idx_rowAfter, v8_apply]
private theorem v13_cls (x2 : IVec SLab 32) (b : Fin 4) (c : Fin 14) (h w : Fin 512) :
    val_main_v13 (F := Ideal) x2 (ix4 b c h w) = clsAtR x2 b c (h.val + 1) w.val := by
  rw [val_main_v13_apply, idx_colBefore, v8_apply]
private theorem v15_cls (x2 : IVec SLab 32) (b : Fin 4) (c : Fin 14) (h w : Fin 512) :
    val_main_v15 (F := Ideal) x2 (ix4 b c h w) = clsAtR x2 b c (h.val + 1) (w.val + 2) := by
  rw [val_main_v15_apply, idx_colAfter, v8_apply]
private theorem v18_cls (x2 : IVec SLab 32) (b : Fin 4) (c : Fin 14) (h w : Fin 512) :
    val_main_v18 (F := Ideal) x2 (ix4 b c h w) = clsAtR x2 b c h.val (w.val + 1) := by
  rw [val_main_v18_apply, show idx_main_v18 (ix4 b c h w) = idx_main_v9 (ix4 b c h w) from rfl, idx_rowBefore, v17_apply]
private theorem v20_cls (x2 : IVec SLab 32) (b : Fin 4) (c : Fin 14) (h w : Fin 512) :
    val_main_v20 (F := Ideal) x2 (ix4 b c h w) = clsAtR x2 b c (h.val + 2) (w.val + 1) := by
  rw [val_main_v20_apply, show idx_main_v20 (ix4 b c h w) = idx_main_v11 (ix4 b c h w) from rfl, idx_rowAfter, v17_apply]
private theorem v22_cls (x2 : IVec SLab 32) (b : Fin 4) (c : Fin 14) (h w : Fin 512) :
    val_main_v22 (F := Ideal) x2 (ix4 b c h w) = clsAtR x2 b c (h.val + 1) w.val := by
  rw [val_main_v22_apply, show idx_main_v22 (ix4 b c h w) = idx_main_v13 (ix4 b c h w) from rfl, idx_colBefore, v17_apply]
private theorem v24_cls (x2 : IVec SLab 32) (b : Fin 4) (c : Fin 14) (h w : Fin 512) :
    val_main_v24 (F := Ideal) x2 (ix4 b c h w) = clsAtR x2 b c (h.val + 1) (w.val + 2) := by
  rw [val_main_v24_apply, show idx_main_v24 (ix4 b c h w) = idx_main_v15 (ix4 b c h w) from rfl, idx_colAfter, v17_apply]

/-- The reference's edge mask at image `b`, class `c`, pixel `(h, w)`. -/
theorem edges_apply (x2 : IVec SLab 32) (b : Fin 4) (c : Fin 14) (h w : Fin 512) :
    val_main_v26 (F := Ideal) x2 (ix4 b c h w) = edgeOf (clsAtR x2 b c) h w := by
  rw [val_main_v26_apply, val_main_v16_apply, val_main_v14_apply, val_main_v12_apply, val_main_v10_apply,
    val_main_v25_apply, val_main_v23_apply, val_main_v21_apply, val_main_v19_apply,
    v9_cls, v11_cls, v13_cls, v15_cls, v18_cls, v20_cls, v22_cls, v24_cls, v7_cls]
  rfl

/-- A one-bit word's complement is its exclusive or with one. -/
private theorem not_eq_xor_one (e : BitVec 1) : ~~~e = IntOp.xori e 1#1 := by
  rcases BitVec.eq_zero_or_eq_one e with h | h <;> subst h <;> decide

/-- Its body mask. -/
theorem bodies_apply (x2 : IVec SLab 32) (b : Fin 4) (c : Fin 14) (h w : Fin 512) :
    val_main_v28 (F := Ideal) x2 (ix4 b c h w) = bodyOf (clsAtR x2 b c) h w := by
  rw [val_main_v28_apply, val_main_v27_apply, edges_apply, v7_cls, not_eq_xor_one]
  rfl

end Cert.Bpkd.R

end
-- ==== Proof.RChain.lean ====
/-
  The reference's soft part over an arbitrary pair of [4, 14, 262144] arrays: the log-softmax along the last axis is,
  row by row, the tile log-softmax of the row; the closing sum over all entries is the sum over the 56 rows of the rows'
  sums; and the constants around it are the loss's.
-/
import proofs.«401587_j24979529793865_3_alg».proof.Proof.Spec
import proofs.«401587_j24979529793865_3_alg».proof.Proof.Consts
import proofs.«401587_j24979529793865_3_alg».proof.Proof.TileMath
import proofs.«401587_j24979529793865_3_alg».proof.Proof.RefReadP
import Idealize.ShloMosaic.PureOps.Ideal.Laws

noncomputable section

open scoped BigOperators

namespace Cert.Bpkd.R

open Idealize.ShloMosaic Idealize.ShloMosaic.ValueIdx Cert.ReferenceIdeal Cert.ReferenceIdeal.Gen

/-- An array of one value per image, class and flat pixel; one per image and class; a single value. -/
abbrev A3 : Type := FVec Ideal S4x14x262144 .f32
abbrev A2 : Type := FVec Ideal S4x14 .f32
abbrev A0 : Type := FVec Ideal S_ .f32

/-- Row \`(b, c)\` of an array: its 262144 entries along the last axis. -/
def row (X : A3) (b : Fin 4) (c : Fin 14) : Fin 262144 → EReal := fun k => X (ix3 b c k)

/-! ## The log-softmax along the last axis, stage by stage -/

/-- The rows' largest entries: the maximum-reduction from minus infinity, then the maximum with minus infinity. -/
def gMax (X : A3) : A2 :=
  maximumf (broadcastInDim S4x14 ![] bcast_S_S4x14 (constant (F := Ideal) S_ .f32 0xFF800000#32))
    (Host.reduce FloatOps.maximumf X (constant (F := Ideal) S_ .f32 0xFF800000#32) reducesTo_S4x14x262144_S4x14_d2 h_S_)
/-- The entries less their row's largest. -/
def gSh (X : A3) : A3 :=
  subf X (broadcastInDim S4x14x262144 ![0, 1, 2] bcast_S4x14x1_S4x14x262144_0_1_2
    (broadcastInDim S4x14x1 ![0, 1] bcast_S4x14_S4x14x1_0_1 (gMax X)))
/-- The rows' normalisers. -/
def gZ (X : A3) : A2 :=
  Host.reduceAdd (Host.exp (gSh X)) (constant (F := Ideal) S_ .f32 0x00000000#32) reducesTo_S4x14x262144_S4x14_d2 h_S_
/-- The log-softmax. -/
def gLsm (X : A3) : A3 :=
  subf (gSh X) (broadcastInDim S4x14x262144 ![0, 1, 2] bcast_S4x14x1_S4x14x262144_0_1_2
    (Host.log (broadcastInDim S4x14x1 ![0, 1] bcast_S4x14_S4x14x1_0_1 (gZ X))))

theorem reduces_last : S4x14x262144.Reduces [2] S4x14 := by decide

/-- The host's exponential and logarithm read at an index. -/
theorem hexp_apply {s : Shape} (y : FVec Ideal s .f32) (i : s.Idx) : Host.exp y i = Ideal.exp (y i) := rfl
theorem hlog_apply {s : Shape} (y : FVec Ideal s .f32) (i : s.Idx) : Host.log y i = Ideal.log (y i) := rfl

/-- The coordinate-inserting map of the last-axis reduction puts the flat pixel last. -/
theorem lift_ix3 (h : S4x14x262144.Reduces [2] S4x14) (b : Fin 4) (c : Fin 14) (k : Fin 262144) :
    h.lift (ix2 b c) k = ix3 b c k := by
  funext a
  apply Fin.ext
  match a with
  | ⟨0, _⟩ => rfl
  | ⟨1, _⟩ => rfl
  | ⟨2, _⟩ => rfl

theorem gMax_apply (X : A3) (b : Fin 4) (c : Fin 14) : gMax X (ix2 b c) = tmax (row X b c) := by
  unfold gMax
  rw [maximumf_apply, broadcastInDim_apply _ bcast_S_S4x14 _ (ix2 b c) ix0 (fun a => a.elim0), constant_apply,
    Consts.ofBits_neg_inf, bot_sup_eq]
  refine (Host.reduce_eq_fold_single (FloatOps.maximumf (F := Ideal) (φ := .f32)) X _ reducesTo_S4x14x262144_S4x14_d2
    reduces_last h_S_ (ix2 b c)).trans ?_
  rw [constant_apply, Consts.ofBits_neg_inf, tmax_eq_fold]
  exact congrArg (fun f => Finset.fold max ⊥ f Finset.univ) (funext fun k => congrArg X (lift_ix3 _ b c k))

/-- A row's entry less the row's largest. -/
theorem gSh_apply (X : A3) (b : Fin 4) (c : Fin 14) (k : Fin 262144) : gSh X (ix3 b c k) = tsh (row X b c) k := by
  unfold gSh tsh
  rw [subf_apply,
    broadcastInDim_apply _ bcast_S4x14x1_S4x14x262144_0_1_2 _ (ix3 b c k) (ix3 b c (0 : Fin 1)) (fun a => match a with
      | ⟨0, _⟩ => by show b.val = if (4 : Nat) = 1 then 0 else b.val; rw [if_neg (by decide)]
      | ⟨1, _⟩ => by show c.val = if (14 : Nat) = 1 then 0 else c.val; rw [if_neg (by decide)]
      | ⟨2, _⟩ => by show 0 = if (1 : Nat) = 1 then 0 else k.val; rw [if_pos rfl]),
    broadcastInDim_apply _ bcast_S4x14_S4x14x1_0_1 _ (ix3 b c (0 : Fin 1)) (ix2 b c) (fun a => match a with
      | ⟨0, _⟩ => by show b.val = if (4 : Nat) = 1 then 0 else b.val; rw [if_neg (by decide)]
      | ⟨1, _⟩ => by show c.val = if (14 : Nat) = 1 then 0 else c.val; rw [if_neg (by decide)]),
    gMax_apply]
  rfl

/-- A row's normaliser. -/
theorem gZ_apply (X : A3) (b : Fin 4) (c : Fin 14) : gZ X (ix2 b c) = tZ (row X b c) := by
  unfold gZ tZ
  simp only [Host.reduceAdd, Ideal.hostReduceAdd_def]
  rw [Ideal.hostReduceAdd_single reducesTo_S4x14x262144_S4x14_d2 reduces_last, constant_apply, Consts.ofBits_zero, zero_add]
  refine Finset.sum_congr rfl fun k _ => ?_
  refine (congrArg (Host.exp (gSh X)) (lift_ix3 reduces_last b c k)).trans ?_
  exact congrArg Ideal.exp (gSh_apply X b c k)

/-- The log-softmax along the last axis is the tile log-softmax of the row. -/
theorem gLsm_apply (X : A3) (b : Fin 4) (c : Fin 14) (k : Fin 262144) : gLsm X (ix3 b c k) = tlsm (row X b c) k := by
  unfold gLsm tlsm
  rw [subf_apply]
  rw [gSh_apply]
  rw [broadcastInDim_apply _ bcast_S4x14x1_S4x14x262144_0_1_2 _ (ix3 b c k) (ix3 b c (0 : Fin 1)) (fun a => match a with
      | ⟨0, _⟩ => by show b.val = if (4 : Nat) = 1 then 0 else b.val; rw [if_neg (by decide)]
      | ⟨1, _⟩ => by show c.val = if (14 : Nat) = 1 then 0 else c.val; rw [if_neg (by decide)]
      | ⟨2, _⟩ => by show 0 = if (1 : Nat) = 1 then 0 else k.val; rw [if_pos rfl])]
  rw [hlog_apply]
  rw [broadcastInDim_apply _ bcast_S4x14_S4x14x1_0_1 _ (ix3 b c (0 : Fin 1)) (ix2 b c) (fun a => match a with
      | ⟨0, _⟩ => by show b.val = if (4 : Nat) = 1 then 0 else b.val; rw [if_neg (by decide)]
      | ⟨1, _⟩ => by show c.val = if (14 : Nat) = 1 then 0 else c.val; rw [if_neg (by decide)]),
    gZ_apply]

/-! ## The closing sum and the constants -/

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_ix3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's quotient read at an index. -/
theorem hdiv_apply {s : Shape} (x y : FVec Ideal s .f32) (i : s.Idx) : Host.divf x y i = Ideal.div (x i) (y i) := rfl

/-- The divergence terms summed over every entry, times one, over fourteen, times the weight, over four. -/
def gTail (w : BitVec 32) (Ls Lt : A3) : A0 :=
  Host.divf
    (mulf (constant (F := Ideal) S_ .f32 w)
      (Host.divf
        (mulf (constant (F := Ideal) S_ .f32 0x3F800000#32)
          (Host.reduceAdd (mulf (Host.exp Lt) (subf Lt Ls)) (constant (F := Ideal) S_ .f32 0x00000000#32)
            reducesTo_S4x14x262144_S_d0_1_2 h_S_))
        (constant (F := Ideal) S_ .f32 0x41600000#32)))
    (constant (F := Ideal) S_ .f32 0x40800000#32)

theorem gTail_apply (w : BitVec 32) (W : EReal) (hW : Ideal.ofBits .f32 w = W) (Ls Lt : A3) (i : S_.Idx) :
    gTail w Ls Lt i
      = Ideal.div (W * Ideal.div (1 * (0 + ∑ b : Fin 4, ∑ c : Fin 14, ∑ k : Fin 262144,
          Ideal.exp (Lt (ix3 b c k)) * (Lt (ix3 b c k) - Ls (ix3 b c k)))) ((14 : ℝ) : EReal)) ((4 : ℝ) : EReal) := by
  unfold gTail
  rw [hdiv_apply, mulf_apply, hdiv_apply, mulf_apply, constant_apply, constant_apply, constant_apply, constant_apply, hW,
    Consts.ofBits_one, Consts.ofBits_14, Consts.ofBits_4]
  simp only [Host.reduceAdd, Ideal.hostReduceAdd_def]
  rw [Ideal.hostReduceAdd_total reducesTo_S4x14x262144_S_d0_1_2 (fun b => b.elim0), constant_apply, Consts.ofBits_zero,
    sum_ix3]
  rfl

/-- Over two log-softmaxes the whole is the loss of the rows' divergences. -/
theorem gTail_lsm (w : BitVec 32) (W : EReal) (hW : Ideal.ofBits .f32 w = W) (Xs Xt : A3) (i : S_.Idx) :
    gTail w (gLsm Xs) (gLsm Xt) i = lossR W (fun b c => klR (row Xs b c) (row Xt b c)) := by
  rw [gTail_apply w W hW]
  unfold lossR klR
  refine congrArg (fun S => Ideal.div (W * Ideal.div (1 * (0 + S)) ((14 : ℝ) : EReal)) ((4 : ℝ) : EReal)) ?_
  refine Finset.sum_congr rfl fun b _ => Finset.sum_congr rfl fun c _ => Finset.sum_congr rfl fun k _ => ?_
  rw [gLsm_apply, gLsm_apply]

/-! ## The masked arrays -/

/-- A prediction array times a mask's bits as numbers, both laid out flat, over one. -/
def gMask (X : FVec Ideal S4x14x512x512 .f32) (M : IVec S4x14x512x512 1) : A3 :=
  Host.divf
    (mulf (shapeCast _ X shapeCasts_S4x14x512x512_S4x14x262144)
      (shapeCast _ (uitofp (F := Ideal) .f32 M) shapeCasts_S4x14x512x512_S4x14x262144))
    (broadcastInDim S4x14x262144 ![] bcast_S_S4x14x262144 (constant (F := Ideal) S_ .f32 0x3F800000#32))

/-- Flat pixel \`h * 512 + w\` of row \`(b, c)\` is pixel \`(h, w)\` of tile \`(b, c)\`. -/
theorem gMask_apply (X : FVec Ideal S4x14x512x512 .f32) (M : IVec S4x14x512x512 1) (b : Fin 4) (c : Fin 14) (h w : Fin 512)
    (k : Fin 262144) (hk : k.val = h.val * 512 + w.val) :
    gMask X M (ix3 b c k) = Ideal.div (X (ix4 b c h w) * (((M (ix4 b c h w)).toNat : ℝ) : EReal)) 1 := by
  have hc : (S4x14x512x512.rowMajor (ix4 b c h w)).val = (S4x14x262144.rowMajor (ix3 b c k)).val := by
    rewrite [Shape.rowMajor_val_four, Shape.rowMajor_val_three]
    show ((b.val * 14 + c.val) * 512 + h.val) * 512 + w.val = (b.val * 14 + c.val) * 262144 + k.val
    omega
  unfold gMask
  rw [hdiv_apply, mulf_apply, shapeCast_apply X _ (ix3 b c k) (ix4 b c h w) hc,
    shapeCast_apply (uitofp (F := Ideal) .f32 M) _ (ix3 b c k) (ix4 b c h w) hc,
    broadcastInDim_apply _ bcast_S_S4x14x262144 _ (ix3 b c k) ix0 (fun a => a.elim0), constant_apply, Consts.ofBits_one]
  rfl

/-- The flat pixels of a row are the pixels of a tile, row by row of the tile. -/
def flatTile : Fin 262144 ≃ STile.Idx where
  toFun k := ix2 (⟨k.val / 512, by have := k.isLt; omega⟩ : Fin 512) (⟨k.val % 512, by omega⟩ : Fin 512)
  invFun j := ⟨(j 0).val * 512 + (j 1).val, by have h0 : (j 0).val < 512 := (j 0).isLt; have h1 : (j 1).val < 512 := (j 1).isLt; omega⟩
  left_inv k := Fin.ext (by show k.val / 512 * 512 + k.val % 512 = k.val; omega)
  right_inv j := by
    have h0 : (j 0).val < 512 := (j 0).isLt
    have h1 : (j 1).val < 512 := (j 1).isLt
    funext a
    apply Fin.ext
    match a with
    | ⟨0, _⟩ => show ((j 0).val * 512 + (j 1).val) / 512 = (j 0).val; omega
    | ⟨1, _⟩ => show ((j 0).val * 512 + (j 1).val) % 512 = (j 1).val; omega

/-- A row of a masked array is the reference's masked tile, read along the flat pixels. -/
theorem gMask_row (X : FVec Ideal S4x14x512x512 .f32) (M : IVec S4x14x512x512 1) (b : Fin 4) (c : Fin 14) :
    row (gMask X M) b c = fun k => mulTile (fun h w => M (ix4 b c h w)) X b c (flatTile k) := by
  funext k
  exact gMask_apply X M b c ⟨k.val / 512, by have := k.isLt; omega⟩ ⟨k.val % 512, by omega⟩ k
    (by show k.val = k.val / 512 * 512 + k.val % 512; omega)

/-- The loss over two masked arrays' log-softmaxes is the loss of the masked tiles' divergences. -/
theorem gTail_mask (w : BitVec 32) (W : EReal) (hW : Ideal.ofBits .f32 w = W) (S T : FVec Ideal S4x14x512x512 .f32)
    (M : IVec S4x14x512x512 1) (i : S_.Idx) :
    gTail w (gLsm (gMask S M)) (gLsm (gMask T M)) i
      = lossR W (fun b c => klR (mulTile (fun h w => M (ix4 b c h w)) S b c) (mulTile (fun h w => M (ix4 b c h w)) T b c)) := by
  rw [gTail_lsm w W hW]
  refine congrArg (lossR W) (funext fun b => funext fun c => ?_)
  rw [gMask_row, gMask_row]
  exact klR_comp_equiv flatTile _ _

end Cert.Bpkd.R

end
-- ==== Proof.RSoft.lean ====
/-
  The reference's two results as the weighted sums of the 56 tiles' divergences. Each result's chain of stages is, read
  as written, the masked arrays' log-softmaxes under the closing sum and constants; the generic facts about those give the
  loss of the rows' divergences, a row of a masked array is the masked tile along its flat pixels, and the masks are the
  edge and body masks.
-/
import proofs.«401587_j24979529793865_3_alg».proof.Proof.Spec
import proofs.«401587_j24979529793865_3_alg».proof.Proof.Consts
import proofs.«401587_j24979529793865_3_alg».proof.Proof.TileMath
import proofs.«401587_j24979529793865_3_alg».proof.Proof.RMask
import proofs.«401587_j24979529793865_3_alg».proof.Proof.RefReadP
import proofs.«401587_j24979529793865_3_alg».proof.Proof.RChain
import Idealize.ShloMosaic.PureOps.Ideal.Laws

noncomputable section

open scoped BigOperators

namespace Cert.Bpkd.R

open Idealize.ShloMosaic Idealize.ShloMosaic.ValueIdx Cert.ReferenceIdeal Cert.ReferenceIdeal.ReadP

/-! ## The generated stages are these functions of the argument arrays -/

theorem v38_eq (x1 : FVec Ideal SPred .f32) (x2 : IVec SLab 32) :
    val_main_v38 (F := Ideal) x1 x2 = gMask x1 (val_main_v26 (F := Ideal) x2) := by
  unfold val_main_v38 val_main_v37 val_main_cst val_main_v36 val_main_v34 val_main_v30 val_main_v29 gMask
  rfl
theorem v41_eq (x0 : FVec Ideal SPred .f32) (x2 : IVec SLab 32) :
    val_main_v41 (F := Ideal) x0 x2 = gMask x0 (val_main_v26 (F := Ideal) x2) := by
  unfold val_main_v41 val_main_v40 val_main_cst_3 val_main_v35 val_main_v33 val_main_v30 val_main_v29 gMask
  rfl
theorem v39_eq (x1 : FVec Ideal SPred .f32) (x2 : IVec SLab 32) :
    val_main_v39 (F := Ideal) x1 x2 = gLsm (val_main_v38 (F := Ideal) x1 x2) := by
  unfold val_main_v39 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1 gLsm gZ gSh gMax
  rfl
theorem v42_eq (x0 : FVec Ideal SPred .f32) (x2 : IVec SLab 32) :
    val_main_v42 (F := Ideal) x0 x2 = gLsm (val_main_v41 (F := Ideal) x0 x2) := by
  unfold val_main_v42 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1 gLsm gZ gSh gMax
  rfl
theorem v50_eq (x0 x1 : FVec Ideal SPred .f32) (x2 : IVec SLab 32) :
    val_main_v50 (F := Ideal) x0 x1 x2
      = gTail 0x43FA0000#32 (val_main_v42 (F := Ideal) x0 x2) (val_main_v39 (F := Ideal) x1 x2) := by
  unfold val_main_v50 val_main_cst_8 val_main_v49 val_main_cst_7 val_main_v48 val_main_cst_6 val_main_v47 val_main_cst_5
    val_main_v46 val_main_cst_4 val_main_v45 val_main_v44 val_main_v43 gTail
  rfl

theorem v54_eq (x1 : FVec Ideal SPred .f32) (x2 : IVec SLab 32) :
    val_main_v54 (F := Ideal) x1 x2 = gMask x1 (val_main_v28 (F := Ideal) x2) := by
  unfold val_main_v54 val_main_v53 val_main_cst_9 val_main_v52 val_main_v34 val_main_v32 val_main_v31 gMask
  rfl
theorem v57_eq (x0 : FVec Ideal SPred .f32) (x2 : IVec SLab 32) :
    val_main_v57 (F := Ideal) x0 x2 = gMask x0 (val_main_v28 (F := Ideal) x2) := by
  unfold val_main_v57 val_main_v56 val_main_cst_10 val_main_v51 val_main_v33 val_main_v32 val_main_v31 gMask
  rfl
theorem v55_eq (x1 : FVec Ideal SPred .f32) (x2 : IVec SLab 32) :
    val_main_v55 (F := Ideal) x1 x2 = gLsm (val_main_v54 (F := Ideal) x1 x2) := by
  unfold val_main_v55 val_main_call4_v10 val_main_call4_v9 val_main_call4_v8 val_main_call4_v7 val_main_call4_v6
    val_main_call4_v5 val_main_call4_v4 val_main_call4_v3 val_main_call4_v2 val_main_call4_v1 val_main_call4_v0
    val_main_call4_cst val_main_call4_cst_0 val_main_call4_cst_1 gLsm gZ gSh gMax
  rfl
theorem v58_eq (x0 : FVec Ideal SPred .f32) (x2 : IVec SLab 32) :
    val_main_v58 (F := Ideal) x0 x2 = gLsm (val_main_v57 (F := Ideal) x0 x2) := by
  unfold val_main_v58 val_main_call5_v10 val_main_call5_v9 val_main_call5_v8 val_main_call5_v7 val_main_call5_v6
    val_main_call5_v5 val_main_call5_v4 val_main_call5_v3 val_main_call5_v2 val_main_call5_v1 val_main_call5_v0
    val_main_call5_cst val_main_call5_cst_0 val_main_call5_cst_1 gLsm gZ gSh gMax
  rfl
theorem v66_eq (x0 x1 : FVec Ideal SPred .f32) (x2 : IVec SLab 32) :
    val_main_v66 (F := Ideal) x0 x1 x2
      = gTail 0x43480000#32 (val_main_v58 (F := Ideal) x0 x2) (val_main_v55 (F := Ideal) x1 x2) := by
  unfold val_main_v66 val_main_cst_15 val_main_v65 val_main_cst_14 val_main_v64 val_main_cst_13 val_main_v63 val_main_cst_12
    val_main_v62 val_main_cst_11 val_main_v61 val_main_v60 val_main_v59 gTail
  rfl

/-- The reference's first result is the edge loss of the argument arrays. -/
theorem edges_eq (x0 x1 : FVec Ideal SPred .f32) (x2 : IVec SLab 32) :
    val_main_v50 (F := Ideal) x0 x1 x2 = fun _ => lossR ((500 : ℝ) : EReal) (edgeQ x0 x1 x2) := by
  funext i
  rw [v50_eq, v42_eq, v39_eq, v41_eq, v38_eq, gTail_mask _ _ Consts.ofBits_500]
  refine congrArg (lossR _) (funext fun b => funext fun c => ?_)
  have hM : (fun h w => val_main_v26 (F := Ideal) x2 (ix4 b c h w)) = edgeOf (clsAtR x2 b c) :=
    funext fun h => funext fun w => edges_apply x2 b c h w
  rw [hM]
  rfl
/-- Its second result is the body loss. -/
theorem bodies_eq (x0 x1 : FVec Ideal SPred .f32) (x2 : IVec SLab 32) :
    val_main_v66 (F := Ideal) x0 x1 x2 = fun _ => lossR ((200 : ℝ) : EReal) (bodyQ x0 x1 x2) := by
  funext i
  rw [v66_eq, v58_eq, v55_eq, v57_eq, v54_eq, gTail_mask _ _ Consts.ofBits_200]
  refine congrArg (lossR _) (funext fun b => funext fun c => ?_)
  have hM : (fun h w => val_main_v28 (F := Ideal) x2 (ix4 b c h w)) = bodyOf (clsAtR x2 b c) :=
    funext fun h => funext fun w => bodies_apply x2 b c h w
  rw [hM]
  rfl

end Cert.Bpkd.R

end
-- ==== Proof.Bridge.lean ====
/- The two losses agree on finite prediction arrays. -/
import proofs.«401587_j24979529793865_3_alg».proof.Proof.Spec
import proofs.«401587_j24979529793865_3_alg».proof.Proof.Consts
import proofs.«401587_j24979529793865_3_alg».proof.Proof.TileMath
import Mathlib.Data.EReal.Basic
import Mathlib.Data.EReal.Operations
import Mathlib.Algebra.BigOperators.Fin
import Mathlib.Tactic.Ring
import Mathlib.Tactic.NormNum

noncomputable section

open scoped BigOperators

namespace Cert.Bpkd

open Idealize.ShloMosaic Idealize.ShloMosaic.ValueIdx

/-! ## One entry of a masked tile -/

/-- Dividing by one changes nothing. -/
private theorem div_one' (x : EReal) : Ideal.div x 1 = x := by
  rw [← EReal.coe_one, Ideal.div_coe one_ne_zero, div_one, EReal.coe_one, mul_one]

/-- An entry times a cleared mask bit, over one, is zero. -/
private theorem div_mask_zero (m : BitVec 1) (hm : m = 0#1) (x : EReal) :
    Ideal.div (x * (((m.toNat : ℕ) : ℝ) : EReal)) 1 = 0 := by
  subst hm
  rw [div_one', show ((0#1 : BitVec 1).toNat) = 0 from rfl, Nat.cast_zero, EReal.coe_zero, mul_zero]

/-- An entry times the mask bit as a number, over one, is the selection by the bit: the bit is `0` or `1`, and
    `x · 0 = 0`, `x · 1 = x` at every extended real. -/
private theorem div_mask (m : BitVec 1) (x : EReal) :
    Ideal.div (x * (((m.toNat : ℕ) : ℝ) : EReal)) 1 = Scalar.select m x 0 := by
  rcases BitVec.eq_zero_or_eq_one m with h | h
  · rw [div_mask_zero m h x, h, select_zero]
  · subst h
    rw [div_one', show ((1#1 : BitVec 1).toNat) = 1 from rfl, Nat.cast_one, EReal.coe_one, mul_one, select_one]

/-! ## Masked tiles -/

/-- The tile's index set is not empty. -/
private theorem tile_nonempty : Nonempty STile.Idx := ⟨ix2 (0 : Fin 512) (0 : Fin 512)⟩

/-- Masking by multiplication and masking by selection give the same tile. -/
private theorem mulTile_eq_selTile (M : Fin 512 → Fin 512 → BitVec 1) (X : FVec Ideal SPred .f32) (b : Fin 4) (c : Fin 14) :
    mulTile M X b c = selTile M X b c := by
  funext j
  exact div_mask (M (j 0) (j 1)) (X (ix4 b c (j 0) (j 1)))

/-- Under the all-clear mask the multiplied tile is the zero tile. -/
private theorem mulTile_clear (M : Fin 512 → Fin 512 → BitVec 1) (hM : ∀ h w, M h w = 0#1) (X : FVec Ideal SPred .f32)
    (b : Fin 4) (c : Fin 14) : mulTile M X b c = fun _ => (0 : EReal) := by
  funext j
  exact div_mask_zero (M (j 0) (j 1)) (hM (j 0) (j 1)) (X (ix4 b c (j 0) (j 1)))

/-- A selected tile of a finite array is finite: each entry is an entry of the array or zero. -/
private theorem selTile_real (M : Fin 512 → Fin 512 → BitVec 1) (X : FVec Ideal SPred .f32)
    (hX : ∀ i, ∃ r : ℝ, X i = (r : EReal)) (b : Fin 4) (c : Fin 14) (j : STile.Idx) :
    ∃ r : ℝ, selTile M X b c j = (r : EReal) := by
  unfold selTile sel Scalar.select
  split
  · exact hX _
  · exact ⟨0, EReal.coe_zero.symm⟩

/-! ## The reference's indicator, class by class -/

/-- Class 0's indicator is cleared everywhere. -/
private theorem clsAtR_zero (g : IVec SLab 32) (b : Fin 4) : clsAtR g b 0 = fun _ _ => 0#1 := by
  funext h w
  exact if_pos rfl

/-- For the classes 1 … 13 the reference's indicator is the kernel's. -/
private theorem clsAtR_succ (g : IVec SLab 32) (b : Fin 4) (s : Fin 13) :
    clsAtR g b s.succ = clsAt (plane g b) (BitVec.ofNat 32 (s.val + 1)) := by
  funext h w
  unfold clsAtR
  rw [Fin.val_succ, if_neg (by omega : ¬ (s.val + 1 = 0))]

/-- With the indicator cleared everywhere, dilation and erosion are both clear: no edge pixel, no body pixel. -/
private theorem edge5_clear : edge5 0#1 0#1 0#1 0#1 0#1 = 0#1 := by decide
private theorem body5_clear : body5 0#1 0#1 0#1 0#1 0#1 = 0#1 := by decide
private theorem edgeOf_clear (h w : Fin 512) : edgeOf (fun _ _ => 0#1) h w = 0#1 := edge5_clear
private theorem bodyOf_clear (h w : Fin 512) : bodyOf (fun _ _ => 0#1) h w = 0#1 := body5_clear

/-! ## The two results -/

/-- The inclusion of the reals in the extended reals carries a finite sum to the sum of the inclusions. -/
private theorem coe_sum' {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- If class 0's tiles contribute nothing, the classes 1 … 13 contribute what the kernel's thirteen steps do, and
    these contributions are real numbers, then the two results are the same real number: with `σ` the sum of the
    contributions, `w · σ / 56 = w · (σ / 14) / 4`. -/
private theorem losses_eq (w : ℝ) (P : Fin 4 → Fin 13 → EReal) (Q : Fin 4 → Fin 14 → EReal)
    (h0 : ∀ b, Q b 0 = 0) (hs : ∀ b (s : Fin 13), Q b s.succ = P b s) (hP : ∀ b s, ∃ r : ℝ, P b s = (r : EReal)) :
    lossK (w : EReal) P = lossR (w : EReal) Q := by
  choose p hp using hP
  have hσ : ∑ b : Fin 4, ∑ s : Fin 13, P b s = ((∑ b : Fin 4, ∑ s : Fin 13, p b s : ℝ) : EReal) := by
    rw [coe_sum']
    refine Finset.sum_congr rfl fun b _ => ?_
    rw [coe_sum']
    exact Finset.sum_congr rfl fun s _ => hp b s
  have hQ : ∑ b : Fin 4, ∑ c : Fin 14, Q b c = ∑ b : Fin 4, ∑ s : Fin 13, P b s := by
    refine Finset.sum_congr rfl fun b _ => ?_
    rw [Fin.sum_univ_succ, h0 b, zero_add]
    exact Finset.sum_congr rfl fun s _ => hs b s
  unfold lossK lossR
  rw [hQ, hσ, Ideal.div_coe (by norm_num : (56 : ℝ) ≠ 0), Ideal.div_coe (by norm_num : (14 : ℝ) ≠ 0),
    Ideal.div_coe (by norm_num : (4 : ℝ) ≠ 0), zero_add, one_mul]
  simp only [← EReal.coe_mul]
  congr 1
  ring

theorem edge_losses_eq (w : ℝ) (S T : FVec Ideal SPred .f32) (g : IVec SLab 32)
    (hS : ∀ i, ∃ r : ℝ, S i = (r : EReal)) (hT : ∀ i, ∃ r : ℝ, T i = (r : EReal)) :
    lossK (w : EReal) (edgeP S T g) = lossR (w : EReal) (edgeQ S T g) := by
  haveI := tile_nonempty
  refine losses_eq w _ _ (fun b => ?_) (fun b s => ?_) (fun b s => ?_)
  · unfold edgeQ
    rw [clsAtR_zero, mulTile_clear (edgeOf fun _ _ => 0#1) edgeOf_clear S,
      mulTile_clear (edgeOf fun _ _ => 0#1) edgeOf_clear T]
    exact klR_zero
  · unfold edgeQ edgeP
    rw [clsAtR_succ, mulTile_eq_selTile, mulTile_eq_selTile]
    exact (klK_eq_klR _ _ (selTile_real _ S hS b s.succ) (selTile_real _ T hT b s.succ)).symm
  · unfold edgeP
    rw [klK_eq_klR _ _ (selTile_real _ S hS b s.succ) (selTile_real _ T hT b s.succ)]
    exact klR_real _ _ (selTile_real _ S hS b s.succ) (selTile_real _ T hT b s.succ)
theorem body_losses_eq (w : ℝ) (S T : FVec Ideal SPred .f32) (g : IVec SLab 32)
    (hS : ∀ i, ∃ r : ℝ, S i = (r : EReal)) (hT : ∀ i, ∃ r : ℝ, T i = (r : EReal)) :
    lossK (w : EReal) (bodyP S T g) = lossR (w : EReal) (bodyQ S T g) := by
  haveI := tile_nonempty
  refine losses_eq w _ _ (fun b => ?_) (fun b s => ?_) (fun b s => ?_)
  · unfold bodyQ
    rw [clsAtR_zero, mulTile_clear (bodyOf fun _ _ => 0#1) bodyOf_clear S,
      mulTile_clear (bodyOf fun _ _ => 0#1) bodyOf_clear T]
    exact klR_zero
  · unfold bodyQ bodyP
    rw [clsAtR_succ, mulTile_eq_selTile, mulTile_eq_selTile]
    exact (klK_eq_klR _ _ (selTile_real _ S hS b s.succ) (selTile_real _ T hT b s.succ)).symm
  · unfold bodyP
    rw [klK_eq_klR _ _ (selTile_real _ S hS b s.succ) (selTile_real _ T hT b s.succ)]
    exact klR_real _ _ (selTile_real _ S hS b s.succ) (selTile_real _ T hT b s.succ)

end Cert.Bpkd

end
-- ==== Proof.PreFinite.lean ====
/-
  The precondition read: when both "every entry's absolute value is below plus infinity" reductions answer one, every
  entry of the two prediction arrays is a real number.
-/
import proofs.«401587_j24979529793865_3_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Bpkd

open Idealize.ShloMosaic

/-- The scalar shape has one index. -/
instance : Subsingleton Cert.Pre_finite_inputs.S_.Idx := ⟨fun a b => funext fun d => d.elim0⟩

/-- The word of plus infinity denotes the top of the extended reals. -/
theorem ofBits_pos_inf : Ideal.ofBits .f32 0x7F800000#32 = ⊤ := by
  simp [Ideal.ofBits, Ideal.ieee]

/-- An extended real whose absolute value, `max x (-x)`, is strictly below plus infinity is neither infinity: it is a
    real number. -/
theorem real_of_abs_lt_top (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [ofBits_pos_inf] at h'
  induction x using EReal.rec with
  | bot => exact absurd h' (by simp [Ideal.cmp])
  | top => exact absurd h' (by simp [Ideal.cmp])
  | coe r => exact ⟨r, rfl⟩

/-- The precondition gives the finiteness of both prediction arrays. -/
theorem finite_of_pre [Cert.Pre_finite_inputs.Facts]
    (a0 a1 : FVec Ideal Cert.Pre_finite_inputs.S4x14x512x512 .f32) (a2 : IVec Cert.Pre_finite_inputs.S4x1x512x512 32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  have h1 := IntOp.andi_eq_one.mp h0
  refine ⟨fun i => ?_, fun i => ?_⟩
  · exact real_of_abs_lt_top _ (Host.reduce_andi_all _ _ _ _ _ h1.1 i)
  · exact real_of_abs_lt_top _ (Host.reduce_andi_all _ _ _ _ _ h1.2 i)

end Cert.Bpkd

end
-- ==== Proof.lean ====
/-
  The claim of this certificate: the kernel program, its idealization and the idealized reference each run to the end
  without a fault and leave their arguments as they found them; the idealization rewrote nothing; and at the ideal
  values the two idealized programs end with the same two losses.

  The kernel walks the 4 × 13 grid of (image, class 1 … 13): at an image's first step it stores four copies of the
  label plane shifted by one pixel each way (border −1, which is no class) and clears two accumulators; at every step it
  builds the class's edge mask (dilation xor erosion of the class indicator, cross-shaped) and body mask (of the class
  and not an edge), masks both prediction tiles by selection, and adds to each accumulator the divergence
  `∑ softmax(T) · (logsoftmax(T) − logsoftmax(S))` of the masked tiles, the softmax taken as `exp(shifted) · (1 / Z)`;
  @main then sums the four images' accumulators, multiplies by the weight and divides by 56.
  The reference builds all 14 classes' indicators at once, clears class 0's, pads with false, takes the same two masks,
  multiplies the predictions by the masks as numbers, takes the log-softmax over each flattened tile, the softmax as its
  exponential, sums over everything, divides by 14, multiplies by the weight and divides by 4.
  On finite predictions (the precondition) the two agree: a masked tile is the same either way; `exp(a − log Z) =
  exp(a) · (1 / Z)` for a positive real `Z`; class 0's masks are empty, so its tiles are all zero and their divergence
  is zero; and `(w · t) / 56 = (w · ((1 · t) / 14)) / 4` for a real `t`.
-/
import proofs.«401587_j24979529793865_3_alg».proof.Defs
import proofs.«401587_j24979529793865_3_alg».proof.Proof.Gen.Kernel
import proofs.«401587_j24979529793865_3_alg».proof.Proof.Gen.Kernel.Skeleton
import proofs.«401587_j24979529793865_3_alg».proof.Proof.Gen.Kernel.Launch
import proofs.«401587_j24979529793865_3_alg».proof.Proof.Gen.Kernel.Points
import proofs.«401587_j24979529793865_3_alg».proof.Proof.Gen.Kernel.Frame
import proofs.«401587_j24979529793865_3_alg».proof.Proof.Gen.KernelIdeal
import proofs.«401587_j24979529793865_3_alg».proof.Proof.Gen.KernelIdeal.Skeleton
import proofs.«401587_j24979529793865_3_alg».proof.Proof.Gen.KernelIdeal.Launch
import proofs.«401587_j24979529793865_3_alg».proof.Proof.Gen.KernelIdeal.Points
import proofs.«401587_j24979529793865_3_alg».proof.Proof.Gen.KernelIdeal.Frame
import proofs.«401587_j24979529793865_3_alg».proof.Proof.Gen.ReferenceIdeal
import proofs.«401587_j24979529793865_3_alg».proof.Proof.Gen.Pre_finite_inputs
import proofs.«401587_j24979529793865_3_alg».proof.Proof.RefRunP
import proofs.«401587_j24979529793865_3_alg».proof.Proof.RefReadEqP
import proofs.«401587_j24979529793865_3_alg».proof.Proof.KValue
import proofs.«401587_j24979529793865_3_alg».proof.Proof.RSoft
import proofs.«401587_j24979529793865_3_alg».proof.Proof.Bridge
import proofs.«401587_j24979529793865_3_alg».proof.Proof.PreFinite
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- Both idealized programs end at the kernel's spelling of the two losses: the kernel by its run read back, the
    reference by its run, its stages read as the reference's spelling, and the agreement of the two spellings on the
    finite arrays the precondition admits. -/
theorem algebraic : Cert.algebraic_KernelIdeal_ReferenceIdeal := by
  intro m ρ m' ρ' hpre hagree
  refine ⟨_, _, Cert.Bpkd.K.run m ρ, ?_⟩
  refine (θ_run Cert.ReferenceIdeal.defs _ _).mono (fun r h c => ?_) (Cert.ReferenceIdeal.ValueP.run (F := Ideal) m' ρ')
  obtain ⟨h50, h66, ha0, ha1, ha2⟩ := h c
  obtain ⟨hS, hT⟩ := Cert.Bpkd.finite_of_pre _ _ _ (hpre c)
  refine ⟨?_, ?_, ha0, ha1, ha2⟩
  · rw [h50, Cert.ReferenceIdeal.ReadP.val_main_v50_eq, Cert.Bpkd.R.edges_eq, (hagree c).1, (hagree c).2.1, (hagree c).2.2]
    funext _
    exact (Cert.Bpkd.edge_losses_eq 500 _ _ _ hS hT).symm
  · rw [h66, Cert.ReferenceIdeal.ReadP.val_main_v66_eq, Cert.Bpkd.R.bodies_eq, (hagree c).1, (hagree c).2.1, (hagree c).2.2]
    funext _
    exact (Cert.Bpkd.body_losses_eq 200 _ _ _ hS hT).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
